-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x4096 : Shape := ⟨2, ![2048, 4096]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048x4096 .f32) (main_arg12 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x4096 .f32 := Host.absf main_arg11
  let main_cst_20 : FVec F S_ .f32 := constant S_ .f32 0x7F800000#32
  let main_v55 : FVec F S2048x4096 .f32 := broadcastInDim S2048x4096 ![] bcast_S_S2048x4096 main_cst_20
  let main_v56 : IVec S2048x4096 1 := cmpf .olt main_v54 main_v55
  let main_c_21 : IVec S_ 1 := constantI S_ 1 1#1
  let main_v57 : IVec S_ 1 := (fun x v => Host.reduce IntOp.andi x v reducesTo_S2048x4096_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  main_v63

def fn_part2 {F : FTy → Type} [FloatOps F] (main_arg7 : FVec F S2048x4096 .f32) (main_arg8 : FVec F S2048 .f32) (main_arg9 : FVec F S2048x4096 .f32) (main_arg10 : FVec F S2048 .f32) (main_arg11 : FVec F S2048x4096 .f32) (main_arg12 : FVec F S2048 .f32) (main_v33 : IVec S_ 1) : IVec S_ 1 :=
  let main_v34 : FVec F S2048x4096 .f32 := Host.absf main_arg7
  let main_cst_12 : FVec F S_ .f32 := constant S_ .f32 0x7F800000#32
  let main_v35 : FVec F S2048x4096 .f32 := broadcastInDim S2048x4096 ![] bcast_S_S2048x4096 main_cst_12
  let main_v36 : IVec S2048x4096 1 := cmpf .olt main_v34 main_v35
  let main_c_13 : IVec S_ 1 := constantI S_ 1 1#1
  let main_v37 : IVec S_ 1 := (fun x v => Host.reduce IntOp.andi x v reducesTo_S2048x4096_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x4096 .f32 := Host.absf main_arg9
  let main_cst_16 : FVec F S_ .f32 := constant S_ .f32 0x7F800000#32
  let main_v45 : FVec F S2048x4096 .f32 := broadcastInDim S2048x4096 ![] bcast_S_S2048x4096 main_cst_16
  let main_v46 : IVec S2048x4096 1 := cmpf .olt main_v44 main_v45
  let main_c_17 : IVec S_ 1 := constantI S_ 1 1#1
  let main_v47 : IVec S_ 1 := (fun x v => Host.reduce IntOp.andi x v reducesTo_S2048x4096_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S8192x2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_arg11 : FVec F S2048x4096 .f32) (main_arg12 : FVec F S2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S2048x4096 .f32 := Host.absf main_arg5
  let main_cst_8 : FVec F S_ .f32 := constant S_ .f32 0x7F800000#32
  let main_v25 : FVec F S2048x4096 .f32 := broadcastInDim S2048x4096 ![] bcast_S_S2048x4096 main_cst_8
  let main_v26 : IVec S2048x4096 1 := cmpf .olt main_v24 main_v25
  let main_c_9 : IVec S_ 1 := constantI S_ 1 1#1
  let main_v27 : IVec S_ 1 := (fun x v => Host.reduce IntOp.andi x v reducesTo_S2048x4096_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x2048 .f32) (main_arg5 : FVec F S2048x4096 .f32) (main_arg6 : FVec F S2048 .f32) (main_arg7 : FVec F S2048x4096 .f32) (main_arg8 : FVec F S2048 .f32) (main_arg9 : FVec F S2048x4096 .f32) (main_arg10 : FVec F S2048 .f32) (main_arg11 : FVec F S2048x4096 .f32) (main_arg12 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_arg9 main_arg10 main_arg11 main_arg12 main_v13 main_v16
-- ==== Kernel.lean ====
abbrev S8192x2048 : Shape := ⟨2, ![8192, 2048]⟩
abbrev S2048x4096 : Shape := ⟨2, ![2048, 4096]⟩
abbrev S2048 : Shape := ⟨1, ![2048]⟩
abbrev S2048x2048 : Shape := ⟨2, ![2048, 2048]⟩
abbrev S1x2048 : Shape := ⟨2, ![1, 2048]⟩
abbrev S4x8192x2048 : Shape := ⟨3, ![4, 8192, 2048]⟩
abbrev S256x2048 : Shape := ⟨2, ![256, 2048]⟩
abbrev S256x256 : Shape := ⟨2, ![256, 256]⟩
abbrev S1x256 : Shape := ⟨2, ![1, 256]⟩
abbrev S4x256x256 : Shape := ⟨3, ![4, 256, 256]⟩
abbrev S2048x256 : Shape := ⟨2, ![2048, 256]⟩
abbrev S1x256x256 : Shape := ⟨3, ![1, 256, 256]⟩

abbrev nBuf : Space → Nat
  | .hbm => 26
  | .vmem => 28
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S2048x4096, .f32⟩
  | .hbm, ⟨12, _⟩ => ⟨S2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S4x8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S4x256x256, .f32⟩
  | .local _ .vmem, ⟨27, _⟩ => ⟨S4x256x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S256x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S256x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S4x256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

class Facts₀ : Prop where
  slices_S2048x4096_S2048x2048_0_0 : S2048x4096.Slices ![0, 0] S2048x2048
  slices_S2048x4096_S2048x2048_0_2048 : S2048x4096.Slices ![0, 2048] S2048x2048
  bcast_S2048_S1x2048_1 : S2048.BroadcastsInDim S1x2048 (![1] : Fin 1 → Fin S1x2048.rank)
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  shapeCasts_S256x2048_S256x2048 : S256x2048.ShapeCasts S256x2048
  transposes_S256x2048_p1_0_S2048x256 : S256x2048.Transposes [1, 0] S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  inb_S4x256x256_S1x256x256_0_0_0 : ∀ a, (![0, 0, 0] : Fin 3 → Nat) a + S1x256x256.size a ≤ S4x256x256.size a
  h_S1x256x256 : 0 < S1x256x256.numel
  shapeCasts_S1x256x256_S256x256 : S1x256x256.ShapeCasts S256x256
  shapeCasts_S256x256_S1x256x256 : S256x256.ShapeCasts S1x256x256
  inb_S4x256x256_S1x256x256_1_0_0 : ∀ a, (![1, 0, 0] : Fin 3 → Nat) a + S1x256x256.size a ≤ S4x256x256.size a
  inb_S4x256x256_S1x256x256_2_0_0 : ∀ a, (![2, 0, 0] : Fin 3 → Nat) a + S1x256x256.size a ≤ S4x256x256.size a
  inb_S4x256x256_S1x256x256_3_0_0 : ∀ a, (![3, 0, 0] : Fin 3 → Nat) a + S1x256x256.size a ≤ S4x256x256.size a
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S8192x2048.size a
  hwx0_2 : ∀ i : grid0.Coords, EltTy.bits .f32 = 32 ∨ (Rect.block (s := S8192x2048) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S8192x2048.size a
  hwx0_3 : ∀ i : grid0.Coords, EltTy.bits .f32 = 32 ∨ (Rect.block (s := S8192x2048) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S8192x2048.size a
  hwx0_4 : ∀ i : grid0.Coords, EltTy.bits .f32 = 32 ∨ (Rect.block (s := S8192x2048) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S2048x2048.size a
  hwx0_5 : ∀ i : grid0.Coords, EltTy.bits .f32 = 32 ∨ (Rect.block (s := S2048x2048) S256x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .f32 = 32 ∨ (Rect.block (s := S2048x2048) S256x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .f32 = 32 ∨ (Rect.block (s := S2048x2048) S256x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .f32 = 32 ∨ (Rect.block (s := S2048x2048) S256x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .f32 = 32 ∨ (Rect.block (s := S2048x2048) S256x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x2048.size a ≤ S2048x2048.size a
  hwx0_10 : ∀ i : grid0.Coords, EltTy.bits .f32 = 32 ∨ (Rect.block (s := S2048x2048) S256x2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x2048.size a ≤ S2048x2048.size a
  hwx0_11 : ∀ i : grid0.Coords, EltTy.bits .f32 = 32 ∨ (Rect.block (s := S2048x2048) S256x2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S2048x2048.size a
  hwx0_12 : ∀ i : grid0.Coords, EltTy.bits .f32 = 32 ∨ (Rect.block (s := S2048x2048) S256x2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x256.size a ≤ S1x2048.size a
  hwx0_15 : ∀ i : grid0.Coords, EltTy.bits .f32 = 32 ∨ (Rect.block (s := S1x2048) S1x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x256.size a ≤ S1x2048.size a
  hwx0_16 : ∀ i : grid0.Coords, EltTy.bits .f32 = 32 ∨ (Rect.block (s := S1x2048) S1x256.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4x256x256.size a ≤ S4x8192x2048.size a
  hwx0_17 : ∀ i : grid0.Coords, EltTy.bits .f32 = 32 ∨ (Rect.block (s := S4x8192x2048) S4x256x256.size (cc0_transform_17 i) (hinb0_17 i)).WholeWords (EltTy.packing .f32)

variable [Facts₀]

def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S256x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S256x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S256x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S256x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S256x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S256x2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v9) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v10) S1x256.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v11) S1x256.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v12) S4x256x256.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x4096 : Shape := ⟨2, ![2048, 4096]⟩
abbrev S2048 : Shape := ⟨1, ![2048]⟩
abbrev S8192x4096 : Shape := ⟨2, ![8192, 4096]⟩
abbrev S8192 : Shape := ⟨1, ![8192]⟩
abbrev S4096x8192 : Shape := ⟨2, ![4096, 8192]⟩
abbrev S8192x8192 : Shape := ⟨2, ![8192, 8192]⟩
abbrev S1x8192 : Shape := ⟨2, ![1, 8192]⟩
abbrev S_ : Shape := ⟨0, ![]⟩
abbrev S1x8192x2048 : Shape := ⟨3, ![1, 8192, 2048]⟩
abbrev S4x8192x2048 : Shape := ⟨3, ![4, 8192, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S2048x4096, .f32⟩
  | .hbm, ⟨6, _⟩ => ⟨S2048, .f32⟩
  | .hbm, ⟨7, _⟩ => ⟨S2048x4096, .f32⟩
  | .hbm, ⟨8, _⟩ => ⟨S2048, .f32⟩
  | .hbm, ⟨9, _⟩ => ⟨S2048x4096, .f32⟩
  | .hbm, ⟨10, _⟩ => ⟨S2048, .f32⟩
  | .hbm, ⟨11, _⟩ => ⟨S2048x4096, .f32⟩
  | .hbm, ⟨12, _⟩ => ⟨S2048, .f32⟩
  | .hbm, ⟨13, _⟩ => ⟨S8192x4096, .f32⟩
  | .hbm, ⟨14, _⟩ => ⟨S8192x4096, .f32⟩
  | .hbm, ⟨15, _⟩ => ⟨S8192, .f32⟩
  | .hbm, ⟨16, _⟩ => ⟨S4096x8192, .f32⟩
  | .hbm, ⟨17, _⟩ => ⟨S8192x8192, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S1x8192x2048, .f32⟩
  | .hbm, ⟨52, _⟩ => ⟨S1x8192x2048, .f32⟩
  | .hbm, ⟨53, _⟩ => ⟨S1x8192x2048, .f32⟩
  | .hbm, ⟨54, _⟩ => ⟨S1x8192x2048, .f32⟩
  | .hbm, ⟨55, _⟩ => ⟨S4x8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  concatenates_S8192x2048_S8192x2048_S8192x4096_d1 : Shape.Concatenates [S8192x2048, S8192x2048] S8192x4096 1
  concatenates_S2048x4096_S2048x4096_S2048x4096_S2048x4096_S8192x4096_d0 : Shape.Concatenates [S2048x4096, S2048x4096, S2048x4096, S2048x4096] S8192x4096 0
  concatenates_S2048_S2048_S2048_S2048_S8192_d0 : Shape.Concatenates [S2048, S2048, S2048, S2048] S8192 0
  transposes_S8192x4096_S4096x8192_1_0 : S8192x4096.Transposes [1, 0] S4096x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  bcast_S8192x2048_S1x8192x2048_1_2 : S8192x2048.BroadcastsInDim S1x8192x2048 (![1, 2] : Fin 2 → Fin S1x8192x2048.rank)
  concatenates_S1x8192x2048_S1x8192x2048_S1x8192x2048_S1x8192x2048_S4x8192x2048_d0 : Shape.Concatenates [S1x8192x2048, S1x8192x2048, S1x8192x2048, S1x8192x2048] S4x8192x2048 0
  dot_S8192x4096_S4096x8192_S8192x8192_1_0_0_1_n_n_wf : DotDims.WF S8192x4096 S4096x8192 S8192x8192 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.Spec.lean ====
/-
  What the cell computes, as ONE function of the argument arrays, index by index on the extended reals.

  The four gate pre-activations at batch row `b` and unit `j` are affine in the concatenated input `[x, h]`:
  `g(b, j) = Σ_k x(b, k) · W(j, k) + Σ_k h(b, k) · W(j, 2048 + k) + bias(j)`, the weight's 4096 input columns
  being the x-half (columns `k`) followed by the h-half (columns `2048 + k`). The stabilised update is then
  pointwise: `m' = max (f + m) i`, `i' = exp (i - m')`, `f' = exp (f + m - m')`, `c' = f' · c + i' · tanh z`,
  `n' = f' · n + i'`, `h' = σ(o) · (c' / (n' + ε))`, and the result stacks `h', c', n', m'` along a leading axis.

  One program contracts the 4096 columns in one sum, the other in two sums of 2048: `sum_split` is the law
  between them, a regrouping of a finite sum in a commutative monoid, so it holds at the infinities too.
-/
import Idealize.ShloMosaic.PureOps.Ideal
import Idealize.ShloMosaic.PureOps.Ideal.Laws
import Idealize.ShloMosaic.Lib.ValueIdx

noncomputable section

namespace Cert.Cell

open Idealize.ShloMosaic Idealize.ShloMosaic.ValueIdx

/-- A matrix of extended reals over literal extents. -/
abbrev Mat (r c : Nat) : Type := (⟨2, ![r, c]⟩ : Shape).Idx → EReal
/-- A vector of extended reals over a literal extent. -/
abbrev Row (n : Nat) : Type := (⟨1, ![n]⟩ : Shape).Idx → EReal

/-- Input column `k` of a weight's x-half. -/
def lo (k : Fin 2048) : Fin 4096 := ⟨k.val, by omega⟩
/-- Input column `2048 + k` of a weight: column `k` of its h-half. -/
def hi (k : Fin 2048) : Fin 4096 := ⟨2048 + k.val, by omega⟩

@[simp] theorem lo_val (k : Fin 2048) : (lo k).val = k.val := rfl
@[simp] theorem hi_val (k : Fin 2048) : (hi k).val = 2048 + k.val := rfl

/-- A sum over the 4096 input columns is the sum over the x-half plus the sum over the h-half. -/
theorem sum_split (f : Fin 4096 → EReal) :
    ∑ k : Fin 4096, f k = (∑ k : Fin 2048, f (lo k)) + ∑ k : Fin 2048, f (hi k) :=
  Fin.sum_univ_add (a := 2048) (b := 2048) f

/-- One gate's pre-activation at batch row `b`, unit `j`. -/
def gate (X H : Mat 8192 2048) (W : Mat 2048 4096) (B : Row 2048) (b : Fin 8192) (j : Fin 2048) : EReal :=
  (∑ k : Fin 2048, X (ix2 b k) * W (ix2 j (lo k))) + (∑ k : Fin 2048, H (ix2 b k) * W (ix2 j (hi k))) + B (ix1 j)

/-- The guard added to the normaliser: the binary32 value nearest one millionth, the same word in both programs. -/
def eps : EReal := Ideal.ofBits .f32 0x358637BD#32

/-- The new stabiliser. -/
def mNew (i f m : EReal) : EReal := max (f + m) i
/-- The stabilised input gate. -/
def iAct (i f m : EReal) : EReal := Ideal.exp (i - mNew i f m)
/-- The stabilised forget gate. -/
def fAct (i f m : EReal) : EReal := Ideal.exp (f + m - mNew i f m)
/-- The new cell state. -/
def cNew (i f z c m : EReal) : EReal := fAct i f m * c + iAct i f m * Ideal.tanh z
/-- The new normaliser. -/
def nNew (i f n m : EReal) : EReal := fAct i f m * n + iAct i f m
/-- The new hidden state. -/
def hNew (i f o z c n m : EReal) : EReal := Ideal.logistic o * Ideal.div (cNew i f z c m) (nNew i f n m + eps)

/-- The four stacked results at one (row, unit), selected by the position on the leading axis. -/
def slot (s : Nat) (i f o z c n m : EReal) : EReal :=
  if s = 0 then hNew i f o z c n m else if s = 1 then cNew i f z c m else if s = 2 then nNew i f n m else mNew i f m

theorem slot_zero (i f o z c n m : EReal) : slot 0 i f o z c n m = hNew i f o z c n m := rfl
theorem slot_one (i f o z c n m : EReal) : slot 1 i f o z c n m = cNew i f z c m := rfl
theorem slot_two (i f o z c n m : EReal) : slot 2 i f o z c n m = nNew i f n m := rfl
theorem slot_three (i f o z c n m : EReal) : slot 3 i f o z c n m = mNew i f m := rfl

/-- The stacked result `[h', c', n', m']` as one function of the thirteen argument arrays. -/
def G (X H C N M : Mat 8192 2048) (Wi : Mat 2048 4096) (Bi : Row 2048) (Wf : Mat 2048 4096) (Bf : Row 2048)
    (Wo : Mat 2048 4096) (Bo : Row 2048) (Wz : Mat 2048 4096) (Bz : Row 2048) :
    (⟨3, ![4, 8192, 2048]⟩ : Shape).Idx → EReal := fun y =>
  slot (y 0).val (gate X H Wi Bi (y 1) (y 2)) (gate X H Wf Bf (y 1) (y 2)) (gate X H Wo Bo (y 1) (y 2))
    (gate X H Wz Bz (y 1) (y 2)) (C (ix2 (y 1) (y 2))) (N (ix2 (y 1) (y 2))) (M (ix2 (y 1) (y 2)))

theorem G_apply (X H C N M : Mat 8192 2048) (Wi : Mat 2048 4096) (Bi : Row 2048) (Wf : Mat 2048 4096) (Bf : Row 2048)
    (Wo : Mat 2048 4096) (Bo : Row 2048) (Wz : Mat 2048 4096) (Bz : Row 2048) (s : Fin 4) (b : Fin 8192) (j : Fin 2048) :
    G X H C N M Wi Bi Wf Bf Wo Bo Wz Bz (ix3 s b j)
      = slot s.val (gate X H Wi Bi b j) (gate X H Wf Bf b j) (gate X H Wo Bo b j) (gate X H Wz Bz b j)
          (C (ix2 b j)) (N (ix2 b j)) (M (ix2 b j)) := rfl

/-- The sigmoid spelt out, `1 / (1 + exp (-o))` with the unit written as the binary32 word of 1.0, is the logistic
    function on every extended real. -/
theorem logistic_spelt (o : EReal) :
    Ideal.div (Ideal.ofBits .f32 0x3F800000#32) (Ideal.ofBits .f32 0x3F800000#32 + Ideal.exp (-o)) = Ideal.logistic o := by
  have h1 : Ideal.ofBits .f32 0x3F800000#32 = 1 := IdealRules.sign_bit.ideal_onePat .f32
  rw [h1]; rfl

end Cert.Cell

end
-- ==== Proof.Block.lean ====
/-
  What one grid point leaves in its output block, as one function of the point's input blocks.

  Each gate is `x · wxᵀ + h · whᵀ + bias` on a 256 × 256 tile: read at (p, q) the two matrix products are sums
  over the 2048 contraction columns of row p of the activations against row q of the weight tile (the transpose
  turns the weight's row q into the product's column q), the changes of float format are the identity on the
  extended reals, and the bias row is broadcast down the tile. The pointwise update then makes the four slabs
  `h', c', n', m'`, stored at leading positions 0, 1, 2, 3 of the block; the four stores tile the block, so the block
  is the one function `blk` wherever one looks.
-/
import proofs.«177029_j70042326663308_1_alg».proof.Proof.Gen.KernelIdeal.Frame
import proofs.«177029_j70042326663308_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.TcCoe Idealize.ShloMosaic.ValueIdx
open Cert.Cell

/-! ## A 256 × 2048 by 2048 × 256 product read at an index -/

theorem lhs_axis0 (i : S256x256.Idx) (q : dot_S256x2048_S2048x256_S256x256_1_0_0_1_n_n.contr.Idx) :
    (dot_S256x2048_S2048x256_S256x256_1_0_0_1_n_n.lhsIdx i q 0).val = (i 0).val := by
  unfold DotDims.lhsIdx
  rw [dif_neg (show ¬(0 : Fin S256x2048.rank) ∈ dot_S256x2048_S2048x256_S256x256_1_0_0_1_n_n.lhsBatch by decide), dif_pos (show (0 : Fin S256x2048.rank) ∈ dot_S256x2048_S2048x256_S256x256_1_0_0_1_n_n.lhsNonContracting by decide)]
  rfl
theorem lhs_axis1 (i : S256x256.Idx) (q : dot_S256x2048_S2048x256_S256x256_1_0_0_1_n_n.contr.Idx) :
    (dot_S256x2048_S2048x256_S256x256_1_0_0_1_n_n.lhsIdx i q 1).val = (q ⟨0, by decide⟩).val :=
  dot_S256x2048_S2048x256_S256x256_1_0_0_1_n_n.lhsIdx_val_of_single rfl i q
theorem rhs_axis0 (i : S256x256.Idx) (q : dot_S256x2048_S2048x256_S256x256_1_0_0_1_n_n.contr.Idx) :
    (dot_S256x2048_S2048x256_S256x256_1_0_0_1_n_n.rhsIdx i q 0).val = (q ⟨0, by decide⟩).val :=
  dot_S256x2048_S2048x256_S256x256_1_0_0_1_n_n.rhsIdx_val_of_single rfl i q
theorem rhs_axis1 (i : S256x256.Idx) (q : dot_S256x2048_S2048x256_S256x256_1_0_0_1_n_n.contr.Idx) :
    (dot_S256x2048_S2048x256_S256x256_1_0_0_1_n_n.rhsIdx i q 1).val = (i 1).val := by
  unfold DotDims.rhsIdx
  rw [dif_neg (show ¬(1 : Fin S2048x256.rank) ∈ dot_S256x2048_S2048x256_S256x256_1_0_0_1_n_n.rhsBatch by decide), dif_pos (show (1 : Fin S2048x256.rank) ∈ dot_S256x2048_S2048x256_S256x256_1_0_0_1_n_n.rhsNonContracting by decide)]
  rfl

/-- Into a zero accumulator the product at (p, q) is the sum over the contraction column k of the left operand at
    (p, k) times the right operand at (k, q). -/
theorem product_apply (l : FVec Ideal S256x2048 .bf16) (r : FVec Ideal S2048x256 .bf16) (p q : Fin 256) :
    matmul dot_S256x2048_S2048x256_S256x256_1_0_0_1_n_n none l r (constant (F := Ideal) S256x256 .f32 0x00000000#32) (ix2 p q)
      = ∑ k : Fin 2048, l (ix2 p k) * r (ix2 k q) := by
  simp only [matmul]
  rw [Ideal.matmul_constant_zero_apply, ← Equiv.sum_comp (contrEquiv1 dot_S256x2048_S2048x256_S256x256_1_0_0_1_n_n 2048 rfl rfl).symm]
  refine Finset.sum_congr rfl fun k _ => ?_
  have hk := contrEquiv1_symm_val dot_S256x2048_S2048x256_S256x256_1_0_0_1_n_n 2048 rfl rfl k
  have el : dot_S256x2048_S2048x256_S256x256_1_0_0_1_n_n.lhsIdx (ix2 p q) ((contrEquiv1 dot_S256x2048_S2048x256_S256x256_1_0_0_1_n_n 2048 rfl rfl).symm k) = ix2 p k := funext fun a => Fin.ext (by
    match a with
    | ⟨0, _⟩ => exact lhs_axis0 _ _
    | ⟨1, _⟩ => exact (lhs_axis1 _ _).trans hk)
  have er : dot_S256x2048_S2048x256_S256x256_1_0_0_1_n_n.rhsIdx (ix2 p q) ((contrEquiv1 dot_S256x2048_S2048x256_S256x256_1_0_0_1_n_n 2048 rfl rfl).symm k) = ix2 k q := funext fun a => Fin.ext (by
    match a with
    | ⟨0, _⟩ => exact (rhs_axis0 _ _).trans hk
    | ⟨1, _⟩ => exact rhs_axis1 _ _)
  rw [el, er]

/-! ## One gate on a tile -/

/-- A gate's pre-activation at (p, q) of the tile, from the activations' row blocks `x`, `h`, the two weight
    tiles `wx`, `wh` (rows = the tile's units) and the bias row. -/
def tileGate (x h wx wh : Vec Ideal S256x2048 .f32) (bias : Vec Ideal S1x256 .f32) (p q : Fin 256) : EReal :=
  (∑ k : Fin 2048, x (ix2 p k) * wx (ix2 q k)) + (∑ k : Fin 2048, h (ix2 p k) * wh (ix2 q k)) + bias (ix2 (0 : Fin 1) q)

/-- The printed gate — two products against transposed, re-formatted weight tiles, summed, plus the broadcast bias —
    read at (p, q). -/
theorem gate_apply (x h wx wh : Vec Ideal S256x2048 .f32) (bias : Vec Ideal S1x256 .f32) (p q : Fin 256) :
    addf (addf
        (matmul dot_S256x2048_S2048x256_S256x256_1_0_0_1_n_n none (truncf .bf16 x bitsLt_bf16_f32)
          (transpose S2048x256 [1, 0] (truncf .bf16 (shapeCast S256x2048 wx shapeCasts_S256x2048_S256x2048) bitsLt_bf16_f32) transposes_S256x2048_p1_0_S2048x256)
          (constant (F := Ideal) S256x256 .f32 0x00000000#32))
        (matmul dot_S256x2048_S2048x256_S256x256_1_0_0_1_n_n none (truncf .bf16 h bitsLt_bf16_f32)
          (transpose S2048x256 [1, 0] (truncf .bf16 (shapeCast S256x2048 wh shapeCasts_S256x2048_S256x2048) bitsLt_bf16_f32) transposes_S256x2048_p1_0_S2048x256)
          (constant (F := Ideal) S256x256 .f32 0x00000000#32)))
      (broadcastTo S256x256 (shapeCast S1x256 bias shapeCasts_S1x256_S1x256) broadcasts_S1x256_S256x256) (ix2 p q)
      = tileGate x h wx wh bias p q := by
  rw [shapeCast_self, shapeCast_self, shapeCast_self]
  rw [addf_apply, addf_apply, product_apply, product_apply, broadcastTo_1b_ab_apply]
  unfold tileGate
  refine congrArg₂ (· + ·) (congrArg₂ (· + ·) (Finset.sum_congr rfl fun k _ => ?_) (Finset.sum_congr rfl fun k _ => ?_)) rfl
  · rw [transpose_ix2_apply]; rfl
  · rw [transpose_ix2_apply]; rfl

/-! ## The four gates of a tile, and the pointwise update -/

theorem gateI_apply (x0 x1 x5 x6 : Vec Ideal S256x2048 .f32) (x13 : Vec Ideal S1x256 .f32) (p q : Fin 256) :
    k0_pay9 (F := Ideal) x0 x1 x5 x6 x13 (ix2 p q) = tileGate x0 x1 x5 x6 x13 p q := gate_apply x0 x1 x5 x6 x13 p q
theorem gateF_apply (x0 x1 x7 x8 : Vec Ideal S256x2048 .f32) (x14 : Vec Ideal S1x256 .f32) (p q : Fin 256) :
    k0_pay10 (F := Ideal) x0 x1 x7 x8 x14 (ix2 p q) = tileGate x0 x1 x7 x8 x14 p q := gate_apply x0 x1 x7 x8 x14 p q
theorem gateO_apply (x0 x1 x9 x10 : Vec Ideal S256x2048 .f32) (x15 : Vec Ideal S1x256 .f32) (p q : Fin 256) :
    k0_pay12 (F := Ideal) (k0_pay7 x0) (k0_pay8 x1) (k0_pay11 x9) x10 x15 (ix2 p q) = tileGate x0 x1 x9 x10 x15 p q :=
  gate_apply x0 x1 x9 x10 x15 p q
theorem gateZ_apply (x0 x1 x11 x12 : Vec Ideal S256x2048 .f32) (x16 : Vec Ideal S1x256 .f32) (p q : Fin 256) :
    k0_pay13 (F := Ideal) (k0_pay7 x0) (k0_pay8 x1) x11 x12 x16 (ix2 p q) = Ideal.tanh (tileGate x0 x1 x11 x12 x16 p q) :=
  congrArg Ideal.tanh (gate_apply x0 x1 x11 x12 x16 p q)

/-- The stabiliser, the two stabilised gates and the forget term are the specification's functions of the gates'
    values, entry by entry. -/
theorem stab_apply (i f : FVec Ideal S256x256 .f32) (m : Vec Ideal S256x256 .f32) (j : S256x256.Idx) :
    k0_pay14 (F := Ideal) i f m j = mNew (i j) (f j) (m j) := rfl
theorem iact_apply (i f : FVec Ideal S256x256 .f32) (m : Vec Ideal S256x256 .f32) (j : S256x256.Idx) :
    k0_pay15 (F := Ideal) i f m j = iAct (i j) (f j) (m j) := rfl
theorem fact_apply (i f : FVec Ideal S256x256 .f32) (m : Vec Ideal S256x256 .f32) (j : S256x256.Idx) :
    k0_pay16 (F := Ideal) i f m j = fAct (i j) (f j) (m j) := rfl
theorem forget_apply (i f : FVec Ideal S256x256 .f32) (c m : Vec Ideal S256x256 .f32) (j : S256x256.Idx) :
    k0_pay17 (F := Ideal) i f c m j = fAct (i j) (f j) (m j) * c j := rfl

/-- The slab stored at leading position 0 (the new hidden state), read at (u, p, q). -/
theorem slabH_apply (o : FVec Ideal S256x256 .f32) (n : Vec Ideal S256x256 .f32) (tz ia fa fc : FVec Ideal S256x256 .f32)
    (u : Fin 1) (p q : Fin 256) :
    k0_pay3 (F := Ideal) o n tz ia fa fc (ix3 u p q)
      = Ideal.logistic (o (ix2 p q)) * Ideal.div (fc (ix2 p q) + ia (ix2 p q) * tz (ix2 p q)) (fa (ix2 p q) * n (ix2 p q) + ia (ix2 p q) + eps) := by
  unfold k0_pay3
  exact shapeCast_ab_1ab_apply _ _ u p q
/-- Position 1 (the new cell state). -/
theorem slabC_apply (tz ia fc : FVec Ideal S256x256 .f32) (u : Fin 1) (p q : Fin 256) :
    k0_pay4 (F := Ideal) tz ia fc (ix3 u p q) = fc (ix2 p q) + ia (ix2 p q) * tz (ix2 p q) := by
  unfold k0_pay4
  exact shapeCast_ab_1ab_apply _ _ u p q
/-- Position 2 (the new normaliser). -/
theorem slabN_apply (n : Vec Ideal S256x256 .f32) (ia fa : FVec Ideal S256x256 .f32) (u : Fin 1) (p q : Fin 256) :
    k0_pay5 (F := Ideal) n ia fa (ix3 u p q) = fa (ix2 p q) * n (ix2 p q) + ia (ix2 p q) := by
  unfold k0_pay5
  exact shapeCast_ab_1ab_apply _ _ u p q
/-- Position 3 (the new stabiliser). -/
theorem slabM_apply (mn : FVec Ideal S256x256 .f32) (u : Fin 1) (p q : Fin 256) :
    k0_pay6 (F := Ideal) mn (ix3 u p q) = mn (ix2 p q) := by
  unfold k0_pay6
  exact shapeCast_ab_1ab_apply _ _ u p q

/-! ## The block -/

/-- The output block of a grid point as one function of the point's seventeen input blocks. -/
def blk (x0 x1 : Vec Ideal S256x2048 .f32) (x2 x3 x4 : Vec Ideal S256x256 .f32) (x5 x6 x7 x8 x9 x10 x11 x12 : Vec Ideal S256x2048 .f32) (x13 x14 x15 x16 : Vec Ideal S1x256 .f32) : S4x256x256.Idx → EReal := fun y =>
  slot (y 0).val (tileGate x0 x1 x5 x6 x13 (y 1) (y 2)) (tileGate x0 x1 x7 x8 x14 (y 1) (y 2)) (tileGate x0 x1 x9 x10 x15 (y 1) (y 2))
    (tileGate x0 x1 x11 x12 x16 (y 1) (y 2)) (x2 (ix2 (y 1) (y 2))) (x3 (ix2 (y 1) (y 2))) (x4 (ix2 (y 1) (y 2)))

theorem blk_apply (x0 x1 : Vec Ideal S256x2048 .f32) (x2 x3 x4 : Vec Ideal S256x256 .f32) (x5 x6 x7 x8 x9 x10 x11 x12 : Vec Ideal S256x2048 .f32) (x13 x14 x15 x16 : Vec Ideal S1x256 .f32) (s : Fin 4) (p q : Fin 256) :
    blk x0 x1 x2 x3 x4 x5 x6 x7 x8 x9 x10 x11 x12 x13 x14 x15 x16 (ix3 s p q)
      = slot s.val (tileGate x0 x1 x5 x6 x13 p q) (tileGate x0 x1 x7 x8 x14 p q) (tileGate x0 x1 x9 x10 x15 p q) (tileGate x0 x1 x11 x12 x16 p q) (x2 (ix2 p q)) (x3 (ix2 p q)) (x4 (ix2 p q)) := rfl

theorem zeros2 : (![0, 0] : Fin 2 → Nat) = fun _ => 0 := funext fun a => by fin_cases a <;> rfl

/-- Where each store's local index (u, p, q) lands in the block: leading position 0, 1, 2, 3. -/
theorem emb_slab0 (u : Fin 1) (p q : Fin 256) : r0_3.emb (ix3 u p q) = ix3 (0 : Fin 4) p q := funext fun a => Fin.ext (by
  match a with
  | ⟨0, _⟩ => show 0 + 1 * u.val = 0; omega
  | ⟨1, _⟩ => show 0 + 1 * p.val = p.val; omega
  | ⟨2, _⟩ => show 0 + 1 * q.val = q.val; omega)
theorem emb_slab1 (u : Fin 1) (p q : Fin 256) : r0_4.emb (ix3 u p q) = ix3 (1 : Fin 4) p q := funext fun a => Fin.ext (by
  match a with
  | ⟨0, _⟩ => show 1 + 1 * u.val = 1; omega
  | ⟨1, _⟩ => show 0 + 1 * p.val = p.val; omega
  | ⟨2, _⟩ => show 0 + 1 * q.val = q.val; omega)
theorem emb_slab2 (u : Fin 1) (p q : Fin 256) : r0_5.emb (ix3 u p q) = ix3 (2 : Fin 4) p q := funext fun a => Fin.ext (by
  match a with
  | ⟨0, _⟩ => show 2 + 1 * u.val = 2; omega
  | ⟨1, _⟩ => show 0 + 1 * p.val = p.val; omega
  | ⟨2, _⟩ => show 0 + 1 * q.val = q.val; omega)
theorem emb_slab3 (u : Fin 1) (p q : Fin 256) : r0_6.emb (ix3 u p q) = ix3 (3 : Fin 4) p q := funext fun a => Fin.ext (by
  match a with
  | ⟨0, _⟩ => show 3 + 1 * u.val = 3; omega
  | ⟨1, _⟩ => show 0 + 1 * p.val = p.val; omega
  | ⟨2, _⟩ => show 0 + 1 * q.val = q.val; omega)

/-- Each stored slab is the block's function on the slab's rectangle. -/
theorem slab0_eq (x0 x1 : Vec Ideal S256x2048 .f32) (x2 x3 x4 : Vec Ideal S256x256 .f32) (x5 x6 x7 x8 x9 x10 x11 x12 : Vec Ideal S256x2048 .f32) (x13 x14 x15 x16 : Vec Ideal S1x256 .f32) (u : Fin 1) (p q : Fin 256) :
    k0_pay3 (F := Ideal) (k0_pay12 (F := Ideal) (k0_pay7 x0) (k0_pay8 x1) (k0_pay11 x9) x10 x15) x3 (k0_pay13 (F := Ideal) (k0_pay7 x0) (k0_pay8 x1) x11 x12 x16) (k0_pay15 (F := Ideal) (k0_pay9 (F := Ideal) x0 x1 x5 x6 x13) (k0_pay10 (F := Ideal) x0 x1 x7 x8 x14) x4) (k0_pay16 (F := Ideal) (k0_pay9 (F := Ideal) x0 x1 x5 x6 x13) (k0_pay10 (F := Ideal) x0 x1 x7 x8 x14) x4) (k0_pay17 (F := Ideal) (k0_pay9 (F := Ideal) x0 x1 x5 x6 x13) (k0_pay10 (F := Ideal) x0 x1 x7 x8 x14) x2 x4) (ix3 u p q) = blk x0 x1 x2 x3 x4 x5 x6 x7 x8 x9 x10 x11 x12 x13 x14 x15 x16 (r0_3.emb (ix3 u p q)) := by
  rw [emb_slab0, blk_apply]
  refine Eq.trans ?_ (slot_zero _ _ _ _ _ _ _).symm
  rw [slabH_apply, gateO_apply, gateZ_apply, iact_apply, fact_apply, forget_apply, gateI_apply, gateF_apply]
  rfl
theorem slab1_eq (x0 x1 : Vec Ideal S256x2048 .f32) (x2 x3 x4 : Vec Ideal S256x256 .f32) (x5 x6 x7 x8 x9 x10 x11 x12 : Vec Ideal S256x2048 .f32) (x13 x14 x15 x16 : Vec Ideal S1x256 .f32) (u : Fin 1) (p q : Fin 256) :
    k0_pay4 (F := Ideal) (k0_pay13 (F := Ideal) (k0_pay7 x0) (k0_pay8 x1) x11 x12 x16) (k0_pay15 (F := Ideal) (k0_pay9 (F := Ideal) x0 x1 x5 x6 x13) (k0_pay10 (F := Ideal) x0 x1 x7 x8 x14) x4) (k0_pay17 (F := Ideal) (k0_pay9 (F := Ideal) x0 x1 x5 x6 x13) (k0_pay10 (F := Ideal) x0 x1 x7 x8 x14) x2 x4) (ix3 u p q) = blk x0 x1 x2 x3 x4 x5 x6 x7 x8 x9 x10 x11 x12 x13 x14 x15 x16 (r0_4.emb (ix3 u p q)) := by
  rw [emb_slab1, blk_apply]
  refine Eq.trans ?_ (slot_one _ _ _ _ _ _ _).symm
  rw [slabC_apply, gateZ_apply, iact_apply, forget_apply, gateI_apply, gateF_apply]
  rfl
theorem slab2_eq (x0 x1 : Vec Ideal S256x2048 .f32) (x2 x3 x4 : Vec Ideal S256x256 .f32) (x5 x6 x7 x8 x9 x10 x11 x12 : Vec Ideal S256x2048 .f32) (x13 x14 x15 x16 : Vec Ideal S1x256 .f32) (u : Fin 1) (p q : Fin 256) :
    k0_pay5 (F := Ideal) x3 (k0_pay15 (F := Ideal) (k0_pay9 (F := Ideal) x0 x1 x5 x6 x13) (k0_pay10 (F := Ideal) x0 x1 x7 x8 x14) x4) (k0_pay16 (F := Ideal) (k0_pay9 (F := Ideal) x0 x1 x5 x6 x13) (k0_pay10 (F := Ideal) x0 x1 x7 x8 x14) x4) (ix3 u p q) = blk x0 x1 x2 x3 x4 x5 x6 x7 x8 x9 x10 x11 x12 x13 x14 x15 x16 (r0_5.emb (ix3 u p q)) := by
  rw [emb_slab2, blk_apply]
  refine Eq.trans ?_ (slot_two _ _ _ _ _ _ _).symm
  rw [slabN_apply, iact_apply, fact_apply, gateI_apply, gateF_apply]
  rfl
theorem slab3_eq (x0 x1 : Vec Ideal S256x2048 .f32) (x2 x3 x4 : Vec Ideal S256x256 .f32) (x5 x6 x7 x8 x9 x10 x11 x12 : Vec Ideal S256x2048 .f32) (x13 x14 x15 x16 : Vec Ideal S1x256 .f32) (u : Fin 1) (p q : Fin 256) :
    k0_pay6 (F := Ideal) (k0_pay14 (F := Ideal) (k0_pay9 (F := Ideal) x0 x1 x5 x6 x13) (k0_pay10 (F := Ideal) x0 x1 x7 x8 x14) x4) (ix3 u p q) = blk x0 x1 x2 x3 x4 x5 x6 x7 x8 x9 x10 x11 x12 x13 x14 x15 x16 (r0_6.emb (ix3 u p q)) := by
  rw [emb_slab3, blk_apply]
  refine Eq.trans ?_ (slot_three _ _ _ _ _ _ _).symm
  rw [slabM_apply, stab_apply, gateI_apply, gateF_apply]

/-- What the body leaves in the output's staging buffer is `blk` of the input blocks: the four stores tile the buffer
    and each is `blk` on its rectangle. -/
theorem out_eq (x0 x1 : Vec Ideal S256x2048 .f32) (x2 x3 x4 : Vec Ideal S256x256 .f32) (x5 x6 x7 x8 x9 x10 x11 x12 : Vec Ideal S256x2048 .f32) (x13 x14 x15 x16 : Vec Ideal S1x256 .f32) : out0_17 (F := Ideal) x0 x1 x2 x3 x4 x5 x6 x7 x8 x9 x10 x11 x12 x13 x14 x15 x16 = blk x0 x1 x2 x3 x4 x5 x6 x7 x8 x9 x10 x11 x12 x13 x14 x15 x16 := by
  funext y
  unfold out0_17
  simp only [View.ld_unit_zero (S := S256x2048) zeros2, View.ld_unit_zero (S := S1x256) zeros2, View.ld_unit_zero (S := S256x256) zeros2]
  refine View.canon_apply_of_pieces (Val := Elt Ideal) (e := .f32) (blk x0 x1 x2 x3 x4 x5 x6 x7 x8 x9 x10 x11 x12 x13 x14 x15 x16) _ ?_ y (cover0_17 _ _ _ _ y)
  intro pc hpc
  simp only [List.mem_cons, List.not_mem_nil, or_false] at hpc
  rcases hpc with rfl | rfl | rfl | rfl
  · intro x
    obtain ⟨u, p, q, rfl⟩ : ∃ (u : Fin 1) (p q : Fin 256), x = ix3 u p q := ⟨x 0, x 1, x 2, eq_ix3 x⟩
    exact slab3_eq x0 x1 x2 x3 x4 x5 x6 x7 x8 x9 x10 x11 x12 x13 x14 x15 x16 u p q
  · intro x
    obtain ⟨u, p, q, rfl⟩ : ∃ (u : Fin 1) (p q : Fin 256), x = ix3 u p q := ⟨x 0, x 1, x 2, eq_ix3 x⟩
    exact slab2_eq x0 x1 x2 x3 x4 x5 x6 x7 x8 x9 x10 x11 x12 x13 x14 x15 x16 u p q
  · intro x
    obtain ⟨u, p, q, rfl⟩ : ∃ (u : Fin 1) (p q : Fin 256), x = ix3 u p q := ⟨x 0, x 1, x 2, eq_ix3 x⟩
    exact slab1_eq x0 x1 x2 x3 x4 x5 x6 x7 x8 x9 x10 x11 x12 x13 x14 x15 x16 u p q
  · intro x
    obtain ⟨u, p, q, rfl⟩ : ∃ (u : Fin 1) (p q : Fin 256), x = ix3 u p q := ⟨x 0, x 1, x 2, eq_ix3 x⟩
    exact slab0_eq x0 x1 x2 x3 x4 x5 x6 x7 x8 x9 x10 x11 x12 x13 x14 x15 x16 u p q

end Cert.KernelIdeal.Block

end
-- ==== Proof.Reads.lean ====
/-
  Where each grid point's input blocks sit in the arrays.

  The grid has 8 × 32 points; point (bj, bi) works on rows `256·bi …` of the batch and units `256·bj …`. Its input
  blocks are those rows of `x` and `h` (all 2048 columns), that tile of `c`, `n`, `m`, the 256 units' rows of the
  x-half and of the h-half of each weight (the halves were cut out of each weight before the launch), and the 256
  units' entries of each bias (laid out as a row before the launch). Each lemma reads one window's block at the
  coordinates the output block's index `y` names, as an entry of the argument array at the coordinates of the
  output ARRAY's index that `y` stands for.
-/
import proofs.«177029_j70042326663308_1_alg».proof.Proof.Gen.KernelIdeal.Value
import proofs.«177029_j70042326663308_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Reads

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Cell

variable (m : (ℓ : Loc nD τ sig) → Buf (Elt Ideal) ℓ)

/-! ## The arrays the host made before the launch -/

theorem V_main_v0 (c : Dev nD) : V m c main_v0 = extractStridedSlice S2048x2048 ![0, 0] (m ((c : Thread nD τ).loc main_arg5)) slices_S2048x4096_S2048x2048_0_0 := by
  dsimp only [V, hostOps0]; after_results
theorem V_main_v1 (c : Dev nD) : V m c main_v1 = extractStridedSlice S2048x2048 ![0, 2048] (m ((c : Thread nD τ).loc main_arg5)) slices_S2048x4096_S2048x2048_0_2048 := by
  dsimp only [V, hostOps0]; after_results
theorem V_main_v2 (c : Dev nD) : V m c main_v2 = extractStridedSlice S2048x2048 ![0, 0] (m ((c : Thread nD τ).loc main_arg7)) slices_S2048x4096_S2048x2048_0_0 := by
  dsimp only [V, hostOps0]; after_results
theorem V_main_v3 (c : Dev nD) : V m c main_v3 = extractStridedSlice S2048x2048 ![0, 2048] (m ((c : Thread nD τ).loc main_arg7)) slices_S2048x4096_S2048x2048_0_2048 := by
  dsimp only [V, hostOps0]; after_results
theorem V_main_v4 (c : Dev nD) : V m c main_v4 = extractStridedSlice S2048x2048 ![0, 0] (m ((c : Thread nD τ).loc main_arg9)) slices_S2048x4096_S2048x2048_0_0 := by
  dsimp only [V, hostOps0]; after_results
theorem V_main_v5 (c : Dev nD) : V m c main_v5 = extractStridedSlice S2048x2048 ![0, 2048] (m ((c : Thread nD τ).loc main_arg9)) slices_S2048x4096_S2048x2048_0_2048 := by
  dsimp only [V, hostOps0]; after_results
theorem V_main_v6 (c : Dev nD) : V m c main_v6 = extractStridedSlice S2048x2048 ![0, 0] (m ((c : Thread nD τ).loc main_arg11)) slices_S2048x4096_S2048x2048_0_0 := by
  dsimp only [V, hostOps0]; after_results
theorem V_main_v7 (c : Dev nD) : V m c main_v7 = extractStridedSlice S2048x2048 ![0, 2048] (m ((c : Thread nD τ).loc main_arg11)) slices_S2048x4096_S2048x2048_0_2048 := by
  dsimp only [V, hostOps0]; after_results
theorem V_main_v8 (c : Dev nD) : V m c main_v8 = broadcastInDim S1x2048 ![1] bcast_S2048_S1x2048_1 (m ((c : Thread nD τ).loc main_arg6)) := by
  dsimp only [V, hostOps0]; after_results
theorem V_main_v9 (c : Dev nD) : V m c main_v9 = broadcastInDim S1x2048 ![1] bcast_S2048_S1x2048_1 (m ((c : Thread nD τ).loc main_arg8)) := by
  dsimp only [V, hostOps0]; after_results
theorem V_main_v10 (c : Dev nD) : V m c main_v10 = broadcastInDim S1x2048 ![1] bcast_S2048_S1x2048_1 (m ((c : Thread nD τ).loc main_arg10)) := by
  dsimp only [V, hostOps0]; after_results
theorem V_main_v11 (c : Dev nD) : V m c main_v11 = broadcastInDim S1x2048 ![1] bcast_S2048_S1x2048_1 (m ((c : Thread nD τ).loc main_arg12)) := by
  dsimp only [V, hostOps0]; after_results

/-! ## Where each window's block sits, decided over the 256 points -/

theorem idx0 : ∀ t : Fin cfg0.N, win0_0.index t (0 : Fin 2) = win0_17.index t (1 : Fin 3) ∧ win0_0.index t (1 : Fin 2) = 0 :=
  (by decide +kernel : ∀ t : Fin grid0.N, _)
theorem idx1 : ∀ t : Fin cfg0.N, win0_1.index t (0 : Fin 2) = win0_17.index t (1 : Fin 3) ∧ win0_1.index t (1 : Fin 2) = 0 :=
  (by decide +kernel : ∀ t : Fin grid0.N, _)
theorem idx2 : ∀ t : Fin cfg0.N, win0_2.index t (0 : Fin 2) = win0_17.index t (1 : Fin 3) ∧ win0_2.index t (1 : Fin 2) = win0_17.index t (2 : Fin 3) :=
  (by decide +kernel : ∀ t : Fin grid0.N, _)
theorem idx3 : ∀ t : Fin cfg0.N, win0_3.index t (0 : Fin 2) = win0_17.index t (1 : Fin 3) ∧ win0_3.index t (1 : Fin 2) = win0_17.index t (2 : Fin 3) :=
  (by decide +kernel : ∀ t : Fin grid0.N, _)
theorem idx4 : ∀ t : Fin cfg0.N, win0_4.index t (0 : Fin 2) = win0_17.index t (1 : Fin 3) ∧ win0_4.index t (1 : Fin 2) = win0_17.index t (2 : Fin 3) :=
  (by decide +kernel : ∀ t : Fin grid0.N, _)
theorem idx5 : ∀ t : Fin cfg0.N, win0_5.index t (0 : Fin 2) = win0_17.index t (2 : Fin 3) ∧ win0_5.index t (1 : Fin 2) = 0 :=
  (by decide +kernel : ∀ t : Fin grid0.N, _)
theorem idx6 : ∀ t : Fin cfg0.N, win0_6.index t (0 : Fin 2) = win0_17.index t (2 : Fin 3) ∧ win0_6.index t (1 : Fin 2) = 0 :=
  (by decide +kernel : ∀ t : Fin grid0.N, _)
theorem idx7 : ∀ t : Fin cfg0.N, win0_7.index t (0 : Fin 2) = win0_17.index t (2 : Fin 3) ∧ win0_7.index t (1 : Fin 2) = 0 :=
  (by decide +kernel : ∀ t : Fin grid0.N, _)
theorem idx8 : ∀ t : Fin cfg0.N, win0_8.index t (0 : Fin 2) = win0_17.index t (2 : Fin 3) ∧ win0_8.index t (1 : Fin 2) = 0 :=
  (by decide +kernel : ∀ t : Fin grid0.N, _)
theorem idx9 : ∀ t : Fin cfg0.N, win0_9.index t (0 : Fin 2) = win0_17.index t (2 : Fin 3) ∧ win0_9.index t (1 : Fin 2) = 0 :=
  (by decide +kernel : ∀ t : Fin grid0.N, _)
theorem idx10 : ∀ t : Fin cfg0.N, win0_10.index t (0 : Fin 2) = win0_17.index t (2 : Fin 3) ∧ win0_10.index t (1 : Fin 2) = 0 :=
  (by decide +kernel : ∀ t : Fin grid0.N, _)
theorem idx11 : ∀ t : Fin cfg0.N, win0_11.index t (0 : Fin 2) = win0_17.index t (2 : Fin 3) ∧ win0_11.index t (1 : Fin 2) = 0 :=
  (by decide +kernel : ∀ t : Fin grid0.N, _)
theorem idx12 : ∀ t : Fin cfg0.N, win0_12.index t (0 : Fin 2) = win0_17.index t (2 : Fin 3) ∧ win0_12.index t (1 : Fin 2) = 0 :=
  (by decide +kernel : ∀ t : Fin grid0.N, _)
theorem idx13 : ∀ t : Fin cfg0.N, win0_13.index t (0 : Fin 2) = 0 ∧ win0_13.index t (1 : Fin 2) = win0_17.index t (2 : Fin 3) :=
  (by decide +kernel : ∀ t : Fin grid0.N, _)
theorem idx14 : ∀ t : Fin cfg0.N, win0_14.index t (0 : Fin 2) = 0 ∧ win0_14.index t (1 : Fin 2) = win0_17.index t (2 : Fin 3) :=
  (by decide +kernel : ∀ t : Fin grid0.N, _)
theorem idx15 : ∀ t : Fin cfg0.N, win0_15.index t (0 : Fin 2) = 0 ∧ win0_15.index t (1 : Fin 2) = win0_17.index t (2 : Fin 3) :=
  (by decide +kernel : ∀ t : Fin grid0.N, _)
theorem idx16 : ∀ t : Fin cfg0.N, win0_16.index t (0 : Fin 2) = 0 ∧ win0_16.index t (1 : Fin 2) = win0_17.index t (2 : Fin 3) :=
  (by decide +kernel : ∀ t : Fin grid0.N, _)
theorem idx17 : ∀ t : Fin cfg0.N, win0_17.index t (0 : Fin 3) = 0 ∧ win0_17.index t (1 : Fin 3) ≤ 31 ∧ win0_17.index t (2 : Fin 3) ≤ 7 :=
  (by decide +kernel : ∀ t : Fin grid0.N, _)

/-- Every (row block, unit block) pair is some point's. -/
theorem idx_onto : ∀ (q1 : Fin 32) (q2 : Fin 8), ∃ t : Fin cfg0.N, win0_17.index t = ![0, q1.val, q2.val] :=
  (by decide +kernel : ∀ (q1 : Fin 32) (q2 : Fin 8), ∃ t : Fin grid0.N, win0_17.index t = ![0, q1.val, q2.val])

/-! ## The block reads -/

/-- The output block's leading coordinate is the output array's: the block spans all four stacked results. -/
theorem lead (t : Fin cfg0.N) (y : ((cfg0.win 17).xblock (cfg0.grid.coords t)).Idx) : ((((cfg0.win 17).blk t).view.emb y) 0).val = (y 0).val := by
  obtain ⟨f0, f1, f2⟩ := idx17 t
  show win0_17.index t (0 : Fin 3) * 4 + 1 * (y 0).val = (y 0).val; omega

/-- Window 0's block: the point's 256 rows of `main_arg0`, all 2048 columns. -/
theorem read0 (c : Dev nD) (t : Fin cfg0.N) (y : ((cfg0.win 17).xblock (cfg0.grid.coords t)).Idx) (k : Fin 2048) :
    iblk m c 0 t (ix2 (y 1) k) = m ((c : Thread nD τ).loc main_arg0) (ix2 ((((cfg0.win 17).blk t).view.emb y) 1) k) := by
  obtain ⟨f0, f1⟩ := idx0 t
  show V m c main_arg0 (((cfg0.win 0).blk t).view.emb (ix2 (y 1) k)) = _
  rw [V_main_arg0]
  refine congrArg _ (funext fun a => Fin.ext ?_)
  match a with
  | ⟨0, _⟩ => show win0_0.index t (0 : Fin 2) * 256 + 1 * (y 1).val = win0_17.index t (1 : Fin 3) * 256 + 1 * (y 1).val; omega
  | ⟨1, _⟩ => show win0_0.index t (1 : Fin 2) * 2048 + 1 * k.val = k.val; omega
/-- Window 1's block: the point's 256 rows of `main_arg1`, all 2048 columns. -/
theorem read1 (c : Dev nD) (t : Fin cfg0.N) (y : ((cfg0.win 17).xblock (cfg0.grid.coords t)).Idx) (k : Fin 2048) :
    iblk m c 1 t (ix2 (y 1) k) = m ((c : Thread nD τ).loc main_arg1) (ix2 ((((cfg0.win 17).blk t).view.emb y) 1) k) := by
  obtain ⟨f0, f1⟩ := idx1 t
  show V m c main_arg1 (((cfg0.win 1).blk t).view.emb (ix2 (y 1) k)) = _
  rw [V_main_arg1]
  refine congrArg _ (funext fun a => Fin.ext ?_)
  match a with
  | ⟨0, _⟩ => show win0_1.index t (0 : Fin 2) * 256 + 1 * (y 1).val = win0_17.index t (1 : Fin 3) * 256 + 1 * (y 1).val; omega
  | ⟨1, _⟩ => show win0_1.index t (1 : Fin 2) * 2048 + 1 * k.val = k.val; omega
/-- Window 2's block: the point's 256 × 256 tile of `main_arg2`. -/
theorem read2 (c : Dev nD) (t : Fin cfg0.N) (y : ((cfg0.win 17).xblock (cfg0.grid.coords t)).Idx) :
    iblk m c 2 t (ix2 (y 1) (y 2)) = m ((c : Thread nD τ).loc main_arg2) (ix2 ((((cfg0.win 17).blk t).view.emb y) 1) ((((cfg0.win 17).blk t).view.emb y) 2)) := by
  obtain ⟨f0, f1⟩ := idx2 t
  show V m c main_arg2 (((cfg0.win 2).blk t).view.emb (ix2 (y 1) (y 2))) = _
  rw [V_main_arg2]
  refine congrArg _ (funext fun a => Fin.ext ?_)
  match a with
  | ⟨0, _⟩ => show win0_2.index t (0 : Fin 2) * 256 + 1 * (y 1).val = win0_17.index t (1 : Fin 3) * 256 + 1 * (y 1).val; omega
  | ⟨1, _⟩ => show win0_2.index t (1 : Fin 2) * 256 + 1 * (y 2).val = win0_17.index t (2 : Fin 3) * 256 + 1 * (y 2).val; omega
/-- Window 3's block: the point's 256 × 256 tile of `main_arg3`. -/
theorem read3 (c : Dev nD) (t : Fin cfg0.N) (y : ((cfg0.win 17).xblock (cfg0.grid.coords t)).Idx) :
    iblk m c 3 t (ix2 (y 1) (y 2)) = m ((c : Thread nD τ).loc main_arg3) (ix2 ((((cfg0.win 17).blk t).view.emb y) 1) ((((cfg0.win 17).blk t).view.emb y) 2)) := by
  obtain ⟨f0, f1⟩ := idx3 t
  show V m c main_arg3 (((cfg0.win 3).blk t).view.emb (ix2 (y 1) (y 2))) = _
  rw [V_main_arg3]
  refine congrArg _ (funext fun a => Fin.ext ?_)
  match a with
  | ⟨0, _⟩ => show win0_3.index t (0 : Fin 2) * 256 + 1 * (y 1).val = win0_17.index t (1 : Fin 3) * 256 + 1 * (y 1).val; omega
  | ⟨1, _⟩ => show win0_3.index t (1 : Fin 2) * 256 + 1 * (y 2).val = win0_17.index t (2 : Fin 3) * 256 + 1 * (y 2).val; omega
/-- Window 4's block: the point's 256 × 256 tile of `main_arg4`. -/
theorem read4 (c : Dev nD) (t : Fin cfg0.N) (y : ((cfg0.win 17).xblock (cfg0.grid.coords t)).Idx) :
    iblk m c 4 t (ix2 (y 1) (y 2)) = m ((c : Thread nD τ).loc main_arg4) (ix2 ((((cfg0.win 17).blk t).view.emb y) 1) ((((cfg0.win 17).blk t).view.emb y) 2)) := by
  obtain ⟨f0, f1⟩ := idx4 t
  show V m c main_arg4 (((cfg0.win 4).blk t).view.emb (ix2 (y 1) (y 2))) = _
  rw [V_main_arg4]
  refine congrArg _ (funext fun a => Fin.ext ?_)
  match a with
  | ⟨0, _⟩ => show win0_4.index t (0 : Fin 2) * 256 + 1 * (y 1).val = win0_17.index t (1 : Fin 3) * 256 + 1 * (y 1).val; omega
  | ⟨1, _⟩ => show win0_4.index t (1 : Fin 2) * 256 + 1 * (y 2).val = win0_17.index t (2 : Fin 3) * 256 + 1 * (y 2).val; omega
/-- Window 5's block: the tile's 256 units' rows of the x-half of `main_arg5`. -/
theorem read5 (c : Dev nD) (t : Fin cfg0.N) (y : ((cfg0.win 17).xblock (cfg0.grid.coords t)).Idx) (k : Fin 2048) :
    iblk m c 5 t (ix2 (y 2) k) = m ((c : Thread nD τ).loc main_arg5) (ix2 ((((cfg0.win 17).blk t).view.emb y) 2) (lo k)) := by
  obtain ⟨f0, f1⟩ := idx5 t
  show V m c main_v0 (((cfg0.win 5).blk t).view.emb (ix2 (y 2) k)) = _
  have e : ((cfg0.win 5).blk t).view.emb (ix2 (y 2) k) = ix2 ((((cfg0.win 17).blk t).view.emb y) 2) k := funext fun a => Fin.ext (by
    match a with
    | ⟨0, _⟩ => show win0_5.index t (0 : Fin 2) * 256 + 1 * (y 2).val = win0_17.index t (2 : Fin 3) * 256 + 1 * (y 2).val; omega
    | ⟨1, _⟩ => show win0_5.index t (1 : Fin 2) * 2048 + 1 * k.val = k.val; omega)
  rw [e, V_main_v0]
  exact slice2_axis1_apply 0 _ _ _ k (lo k) (by simp)
/-- Window 6's block: the tile's 256 units' rows of the h-half of `main_arg5`. -/
theorem read6 (c : Dev nD) (t : Fin cfg0.N) (y : ((cfg0.win 17).xblock (cfg0.grid.coords t)).Idx) (k : Fin 2048) :
    iblk m c 6 t (ix2 (y 2) k) = m ((c : Thread nD τ).loc main_arg5) (ix2 ((((cfg0.win 17).blk t).view.emb y) 2) (hi k)) := by
  obtain ⟨f0, f1⟩ := idx6 t
  show V m c main_v1 (((cfg0.win 6).blk t).view.emb (ix2 (y 2) k)) = _
  have e : ((cfg0.win 6).blk t).view.emb (ix2 (y 2) k) = ix2 ((((cfg0.win 17).blk t).view.emb y) 2) k := funext fun a => Fin.ext (by
    match a with
    | ⟨0, _⟩ => show win0_6.index t (0 : Fin 2) * 256 + 1 * (y 2).val = win0_17.index t (2 : Fin 3) * 256 + 1 * (y 2).val; omega
    | ⟨1, _⟩ => show win0_6.index t (1 : Fin 2) * 2048 + 1 * k.val = k.val; omega)
  rw [e, V_main_v1]
  exact slice2_axis1_apply 2048 _ _ _ k (hi k) (by simp)
/-- Window 7's block: the tile's 256 units' rows of the x-half of `main_arg7`. -/
theorem read7 (c : Dev nD) (t : Fin cfg0.N) (y : ((cfg0.win 17).xblock (cfg0.grid.coords t)).Idx) (k : Fin 2048) :
    iblk m c 7 t (ix2 (y 2) k) = m ((c : Thread nD τ).loc main_arg7) (ix2 ((((cfg0.win 17).blk t).view.emb y) 2) (lo k)) := by
  obtain ⟨f0, f1⟩ := idx7 t
  show V m c main_v2 (((cfg0.win 7).blk t).view.emb (ix2 (y 2) k)) = _
  have e : ((cfg0.win 7).blk t).view.emb (ix2 (y 2) k) = ix2 ((((cfg0.win 17).blk t).view.emb y) 2) k := funext fun a => Fin.ext (by
    match a with
    | ⟨0, _⟩ => show win0_7.index t (0 : Fin 2) * 256 + 1 * (y 2).val = win0_17.index t (2 : Fin 3) * 256 + 1 * (y 2).val; omega
    | ⟨1, _⟩ => show win0_7.index t (1 : Fin 2) * 2048 + 1 * k.val = k.val; omega)
  rw [e, V_main_v2]
  exact slice2_axis1_apply 0 _ _ _ k (lo k) (by simp)
/-- Window 8's block: the tile's 256 units' rows of the h-half of `main_arg7`. -/
theorem read8 (c : Dev nD) (t : Fin cfg0.N) (y : ((cfg0.win 17).xblock (cfg0.grid.coords t)).Idx) (k : Fin 2048) :
    iblk m c 8 t (ix2 (y 2) k) = m ((c : Thread nD τ).loc main_arg7) (ix2 ((((cfg0.win 17).blk t).view.emb y) 2) (hi k)) := by
  obtain ⟨f0, f1⟩ := idx8 t
  show V m c main_v3 (((cfg0.win 8).blk t).view.emb (ix2 (y 2) k)) = _
  have e : ((cfg0.win 8).blk t).view.emb (ix2 (y 2) k) = ix2 ((((cfg0.win 17).blk t).view.emb y) 2) k := funext fun a => Fin.ext (by
    match a with
    | ⟨0, _⟩ => show win0_8.index t (0 : Fin 2) * 256 + 1 * (y 2).val = win0_17.index t (2 : Fin 3) * 256 + 1 * (y 2).val; omega
    | ⟨1, _⟩ => show win0_8.index t (1 : Fin 2) * 2048 + 1 * k.val = k.val; omega)
  rw [e, V_main_v3]
  exact slice2_axis1_apply 2048 _ _ _ k (hi k) (by simp)
/-- Window 9's block: the tile's 256 units' rows of the x-half of `main_arg9`. -/
theorem read9 (c : Dev nD) (t : Fin cfg0.N) (y : ((cfg0.win 17).xblock (cfg0.grid.coords t)).Idx) (k : Fin 2048) :
    iblk m c 9 t (ix2 (y 2) k) = m ((c : Thread nD τ).loc main_arg9) (ix2 ((((cfg0.win 17).blk t).view.emb y) 2) (lo k)) := by
  obtain ⟨f0, f1⟩ := idx9 t
  show V m c main_v4 (((cfg0.win 9).blk t).view.emb (ix2 (y 2) k)) = _
  have e : ((cfg0.win 9).blk t).view.emb (ix2 (y 2) k) = ix2 ((((cfg0.win 17).blk t).view.emb y) 2) k := funext fun a => Fin.ext (by
    match a with
    | ⟨0, _⟩ => show win0_9.index t (0 : Fin 2) * 256 + 1 * (y 2).val = win0_17.index t (2 : Fin 3) * 256 + 1 * (y 2).val; omega
    | ⟨1, _⟩ => show win0_9.index t (1 : Fin 2) * 2048 + 1 * k.val = k.val; omega)
  rw [e, V_main_v4]
  exact slice2_axis1_apply 0 _ _ _ k (lo k) (by simp)
/-- Window 10's block: the tile's 256 units' rows of the h-half of `main_arg9`. -/
theorem read10 (c : Dev nD) (t : Fin cfg0.N) (y : ((cfg0.win 17).xblock (cfg0.grid.coords t)).Idx) (k : Fin 2048) :
    iblk m c 10 t (ix2 (y 2) k) = m ((c : Thread nD τ).loc main_arg9) (ix2 ((((cfg0.win 17).blk t).view.emb y) 2) (hi k)) := by
  obtain ⟨f0, f1⟩ := idx10 t
  show V m c main_v5 (((cfg0.win 10).blk t).view.emb (ix2 (y 2) k)) = _
  have e : ((cfg0.win 10).blk t).view.emb (ix2 (y 2) k) = ix2 ((((cfg0.win 17).blk t).view.emb y) 2) k := funext fun a => Fin.ext (by
    match a with
    | ⟨0, _⟩ => show win0_10.index t (0 : Fin 2) * 256 + 1 * (y 2).val = win0_17.index t (2 : Fin 3) * 256 + 1 * (y 2).val; omega
    | ⟨1, _⟩ => show win0_10.index t (1 : Fin 2) * 2048 + 1 * k.val = k.val; omega)
  rw [e, V_main_v5]
  exact slice2_axis1_apply 2048 _ _ _ k (hi k) (by simp)
/-- Window 11's block: the tile's 256 units' rows of the x-half of `main_arg11`. -/
theorem read11 (c : Dev nD) (t : Fin cfg0.N) (y : ((cfg0.win 17).xblock (cfg0.grid.coords t)).Idx) (k : Fin 2048) :
    iblk m c 11 t (ix2 (y 2) k) = m ((c : Thread nD τ).loc main_arg11) (ix2 ((((cfg0.win 17).blk t).view.emb y) 2) (lo k)) := by
  obtain ⟨f0, f1⟩ := idx11 t
  show V m c main_v6 (((cfg0.win 11).blk t).view.emb (ix2 (y 2) k)) = _
  have e : ((cfg0.win 11).blk t).view.emb (ix2 (y 2) k) = ix2 ((((cfg0.win 17).blk t).view.emb y) 2) k := funext fun a => Fin.ext (by
    match a with
    | ⟨0, _⟩ => show win0_11.index t (0 : Fin 2) * 256 + 1 * (y 2).val = win0_17.index t (2 : Fin 3) * 256 + 1 * (y 2).val; omega
    | ⟨1, _⟩ => show win0_11.index t (1 : Fin 2) * 2048 + 1 * k.val = k.val; omega)
  rw [e, V_main_v6]
  exact slice2_axis1_apply 0 _ _ _ k (lo k) (by simp)
/-- Window 12's block: the tile's 256 units' rows of the h-half of `main_arg11`. -/
theorem read12 (c : Dev nD) (t : Fin cfg0.N) (y : ((cfg0.win 17).xblock (cfg0.grid.coords t)).Idx) (k : Fin 2048) :
    iblk m c 12 t (ix2 (y 2) k) = m ((c : Thread nD τ).loc main_arg11) (ix2 ((((cfg0.win 17).blk t).view.emb y) 2) (hi k)) := by
  obtain ⟨f0, f1⟩ := idx12 t
  show V m c main_v7 (((cfg0.win 12).blk t).view.emb (ix2 (y 2) k)) = _
  have e : ((cfg0.win 12).blk t).view.emb (ix2 (y 2) k) = ix2 ((((cfg0.win 17).blk t).view.emb y) 2) k := funext fun a => Fin.ext (by
    match a with
    | ⟨0, _⟩ => show win0_12.index t (0 : Fin 2) * 256 + 1 * (y 2).val = win0_17.index t (2 : Fin 3) * 256 + 1 * (y 2).val; omega
    | ⟨1, _⟩ => show win0_12.index t (1 : Fin 2) * 2048 + 1 * k.val = k.val; omega)
  rw [e, V_main_v7]
  exact slice2_axis1_apply 2048 _ _ _ k (hi k) (by simp)
/-- Window 13's block: the tile's 256 entries of `main_arg6`, as a row. -/
theorem read13 (c : Dev nD) (t : Fin cfg0.N) (y : ((cfg0.win 17).xblock (cfg0.grid.coords t)).Idx) :
    iblk m c 13 t (ix2 (0 : Fin 1) (y 2)) = m ((c : Thread nD τ).loc main_arg6) (ix1 ((((cfg0.win 17).blk t).view.emb y) 2)) := by
  obtain ⟨f0, f1⟩ := idx13 t
  show V m c main_v8 (((cfg0.win 13).blk t).view.emb (ix2 (0 : Fin 1) (y 2))) = _
  have e : ((cfg0.win 13).blk t).view.emb (ix2 (0 : Fin 1) (y 2)) = ix2 (0 : Fin 1) ((((cfg0.win 17).blk t).view.emb y) 2) := funext fun a => Fin.ext (by
    match a with
    | ⟨0, _⟩ => show win0_13.index t (0 : Fin 2) * 1 + 1 * 0 = 0; omega
    | ⟨1, _⟩ => show win0_13.index t (1 : Fin 2) * 256 + 1 * (y 2).val = win0_17.index t (2 : Fin 3) * 256 + 1 * (y 2).val; omega)
  rw [e, V_main_v8]
  exact broadcastInDim_apply _ bcast_S2048_S1x2048_1 _ _ (ix1 ((((cfg0.win 17).blk t).view.emb y) 2)) (fun a => match a with
    | ⟨0, _⟩ => by show _ = if (2048 : Nat) = 1 then 0 else _; rw [if_neg (by decide)]; rfl)
/-- Window 14's block: the tile's 256 entries of `main_arg8`, as a row. -/
theorem read14 (c : Dev nD) (t : Fin cfg0.N) (y : ((cfg0.win 17).xblock (cfg0.grid.coords t)).Idx) :
    iblk m c 14 t (ix2 (0 : Fin 1) (y 2)) = m ((c : Thread nD τ).loc main_arg8) (ix1 ((((cfg0.win 17).blk t).view.emb y) 2)) := by
  obtain ⟨f0, f1⟩ := idx14 t
  show V m c main_v9 (((cfg0.win 14).blk t).view.emb (ix2 (0 : Fin 1) (y 2))) = _
  have e : ((cfg0.win 14).blk t).view.emb (ix2 (0 : Fin 1) (y 2)) = ix2 (0 : Fin 1) ((((cfg0.win 17).blk t).view.emb y) 2) := funext fun a => Fin.ext (by
    match a with
    | ⟨0, _⟩ => show win0_14.index t (0 : Fin 2) * 1 + 1 * 0 = 0; omega
    | ⟨1, _⟩ => show win0_14.index t (1 : Fin 2) * 256 + 1 * (y 2).val = win0_17.index t (2 : Fin 3) * 256 + 1 * (y 2).val; omega)
  rw [e, V_main_v9]
  exact broadcastInDim_apply _ bcast_S2048_S1x2048_1 _ _ (ix1 ((((cfg0.win 17).blk t).view.emb y) 2)) (fun a => match a with
    | ⟨0, _⟩ => by show _ = if (2048 : Nat) = 1 then 0 else _; rw [if_neg (by decide)]; rfl)
/-- Window 15's block: the tile's 256 entries of `main_arg10`, as a row. -/
theorem read15 (c : Dev nD) (t : Fin cfg0.N) (y : ((cfg0.win 17).xblock (cfg0.grid.coords t)).Idx) :
    iblk m c 15 t (ix2 (0 : Fin 1) (y 2)) = m ((c : Thread nD τ).loc main_arg10) (ix1 ((((cfg0.win 17).blk t).view.emb y) 2)) := by
  obtain ⟨f0, f1⟩ := idx15 t
  show V m c main_v10 (((cfg0.win 15).blk t).view.emb (ix2 (0 : Fin 1) (y 2))) = _
  have e : ((cfg0.win 15).blk t).view.emb (ix2 (0 : Fin 1) (y 2)) = ix2 (0 : Fin 1) ((((cfg0.win 17).blk t).view.emb y) 2) := funext fun a => Fin.ext (by
    match a with
    | ⟨0, _⟩ => show win0_15.index t (0 : Fin 2) * 1 + 1 * 0 = 0; omega
    | ⟨1, _⟩ => show win0_15.index t (1 : Fin 2) * 256 + 1 * (y 2).val = win0_17.index t (2 : Fin 3) * 256 + 1 * (y 2).val; omega)
  rw [e, V_main_v10]
  exact broadcastInDim_apply _ bcast_S2048_S1x2048_1 _ _ (ix1 ((((cfg0.win 17).blk t).view.emb y) 2)) (fun a => match a with
    | ⟨0, _⟩ => by show _ = if (2048 : Nat) = 1 then 0 else _; rw [if_neg (by decide)]; rfl)
/-- Window 16's block: the tile's 256 entries of `main_arg12`, as a row. -/
theorem read16 (c : Dev nD) (t : Fin cfg0.N) (y : ((cfg0.win 17).xblock (cfg0.grid.coords t)).Idx) :
    iblk m c 16 t (ix2 (0 : Fin 1) (y 2)) = m ((c : Thread nD τ).loc main_arg12) (ix1 ((((cfg0.win 17).blk t).view.emb y) 2)) := by
  obtain ⟨f0, f1⟩ := idx16 t
  show V m c main_v11 (((cfg0.win 16).blk t).view.emb (ix2 (0 : Fin 1) (y 2))) = _
  have e : ((cfg0.win 16).blk t).view.emb (ix2 (0 : Fin 1) (y 2)) = ix2 (0 : Fin 1) ((((cfg0.win 17).blk t).view.emb y) 2) := funext fun a => Fin.ext (by
    match a with
    | ⟨0, _⟩ => show win0_16.index t (0 : Fin 2) * 1 + 1 * 0 = 0; omega
    | ⟨1, _⟩ => show win0_16.index t (1 : Fin 2) * 256 + 1 * (y 2).val = win0_17.index t (2 : Fin 3) * 256 + 1 * (y 2).val; omega)
  rw [e, V_main_v11]
  exact broadcastInDim_apply _ bcast_S2048_S1x2048_1 _ _ (ix1 ((((cfg0.win 17).blk t).view.emb y) 2)) (fun a => match a with
    | ⟨0, _⟩ => by show _ = if (2048 : Nat) = 1 then 0 else _; rw [if_neg (by decide)]; rfl)

end Cert.KernelIdeal.Reads

end
-- ==== Proof.KernelValue.lean ====
/-
  The kernel's run, read: the result array is the specification's function of the argument arrays.

  Each grid point's input blocks hold the entries of the argument arrays that the point's output block stands for, so the
  block's function of those blocks IS the specification's function read through the output block; the 256 output
  blocks tile the result array.
-/
import proofs.«177029_j70042326663308_1_alg».proof.Proof.Gen.KernelIdeal.Value
import proofs.«177029_j70042326663308_1_alg».proof.Proof.Block
import proofs.«177029_j70042326663308_1_alg».proof.Proof.Reads
import Idealize.ShloMosaic.Lib.StableHlo.Run
import Idealize.ShloMosaic.Lib.ValueLayout

set_option maxRecDepth 16384

noncomputable section

namespace Cert.KernelIdeal.KernelValue

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Cell
open Idealize.ShloMosaic.Pipeline (Dat)

variable (m : (ℓ : Loc nD τ sig) → Buf (Elt Ideal) ℓ) (ρ : Dev nD → PrngReg)

/-! ## A tile's gate is the array's gate -/

theorem tileGate_eq (X H : Mat 8192 2048) (W : Mat 2048 4096) (B : Row 2048)
    (x h wx wh : Vec Ideal S256x2048 .f32) (bias : Vec Ideal S1x256 .f32) (p q : Fin 256) (r : Fin 8192) (u : Fin 2048)
    (hx : ∀ k : Fin 2048, x (ix2 p k) = X (ix2 r k)) (hh : ∀ k : Fin 2048, h (ix2 p k) = H (ix2 r k))
    (hwx : ∀ k : Fin 2048, wx (ix2 q k) = W (ix2 u (lo k))) (hwh : ∀ k : Fin 2048, wh (ix2 q k) = W (ix2 u (hi k)))
    (hb : bias (ix2 (0 : Fin 1) q) = B (ix1 u)) :
    Block.tileGate x h wx wh bias p q = gate X H W B r u := by
  unfold Block.tileGate gate
  simp only [hx, hh, hwx, hwh, hb]

/-- The block's function at a block index `y` is the specification's function at the array index `Y` the block
    index stands for, given that each input block holds the corresponding entries of its array. -/
theorem blk_eq_G_at (X H C N M : Mat 8192 2048) (Wi : Mat 2048 4096) (Bi : Row 2048) (Wf : Mat 2048 4096) (Bf : Row 2048)
    (Wo : Mat 2048 4096) (Bo : Row 2048) (Wz : Mat 2048 4096) (Bz : Row 2048)
    (x0 x1 : Vec Ideal S256x2048 .f32) (x2 x3 x4 : Vec Ideal S256x256 .f32) (x5 x6 x7 x8 x9 x10 x11 x12 : Vec Ideal S256x2048 .f32)
    (x13 x14 x15 x16 : Vec Ideal S1x256 .f32) (y : S4x256x256.Idx) (Y : (⟨3, ![4, 8192, 2048]⟩ : Shape).Idx)
    (h0 : (Y 0).val = (y 0).val)
    (hx : ∀ k : Fin 2048, x0 (ix2 (y 1) k) = X (ix2 (Y 1) k)) (hh : ∀ k : Fin 2048, x1 (ix2 (y 1) k) = H (ix2 (Y 1) k))
    (hc : x2 (ix2 (y 1) (y 2)) = C (ix2 (Y 1) (Y 2))) (hn : x3 (ix2 (y 1) (y 2)) = N (ix2 (Y 1) (Y 2)))
    (hm : x4 (ix2 (y 1) (y 2)) = M (ix2 (Y 1) (Y 2)))
    (hi1 : ∀ k : Fin 2048, x5 (ix2 (y 2) k) = Wi (ix2 (Y 2) (lo k))) (hi2 : ∀ k : Fin 2048, x6 (ix2 (y 2) k) = Wi (ix2 (Y 2) (hi k)))
    (hf1 : ∀ k : Fin 2048, x7 (ix2 (y 2) k) = Wf (ix2 (Y 2) (lo k))) (hf2 : ∀ k : Fin 2048, x8 (ix2 (y 2) k) = Wf (ix2 (Y 2) (hi k)))
    (ho1 : ∀ k : Fin 2048, x9 (ix2 (y 2) k) = Wo (ix2 (Y 2) (lo k))) (ho2 : ∀ k : Fin 2048, x10 (ix2 (y 2) k) = Wo (ix2 (Y 2) (hi k)))
    (hz1 : ∀ k : Fin 2048, x11 (ix2 (y 2) k) = Wz (ix2 (Y 2) (lo k))) (hz2 : ∀ k : Fin 2048, x12 (ix2 (y 2) k) = Wz (ix2 (Y 2) (hi k)))
    (hbi : x13 (ix2 (0 : Fin 1) (y 2)) = Bi (ix1 (Y 2))) (hbf : x14 (ix2 (0 : Fin 1) (y 2)) = Bf (ix1 (Y 2)))
    (hbo : x15 (ix2 (0 : Fin 1) (y 2)) = Bo (ix1 (Y 2))) (hbz : x16 (ix2 (0 : Fin 1) (y 2)) = Bz (ix1 (Y 2))) :
    Block.blk x0 x1 x2 x3 x4 x5 x6 x7 x8 x9 x10 x11 x12 x13 x14 x15 x16 y = G X H C N M Wi Bi Wf Bf Wo Bo Wz Bz Y := by
  unfold Block.blk G
  rw [h0, hc, hn, hm,
    tileGate_eq X H Wi Bi x0 x1 x5 x6 x13 (y 1) (y 2) (Y 1) (Y 2) hx hh hi1 hi2 hbi,
    tileGate_eq X H Wf Bf x0 x1 x7 x8 x14 (y 1) (y 2) (Y 1) (Y 2) hx hh hf1 hf2 hbf,
    tileGate_eq X H Wo Bo x0 x1 x9 x10 x15 (y 1) (y 2) (Y 1) (Y 2) hx hh ho1 ho2 hbo,
    tileGate_eq X H Wz Bz x0 x1 x11 x12 x16 (y 1) (y 2) (Y 1) (Y 2) hx hh hz1 hz2 hbz]

/-! ## What a point writes back -/

/-- The specification's function of the argument arrays as launched. -/
abbrev Gm (c : Dev nD) : S4x8192x2048.Idx → EReal := (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))

/-- What point `t` writes back is block `t` of the specification's function of the argument arrays. -/
theorem flushed_eq (c : Dev nD) (t : Fin cfg0.N) :
    (dats m 0 c).flushed 17 t = ((cfg0.win 17).blk t).view.read (Elt Ideal) (Gm m c) := by
  rw [Value.flushed17]
  have e := Block.out_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
  rw [e]
  funext y
  show Block.blk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y = Gm m c (((cfg0.win 17).blk t).view.emb y)
  exact blk_eq_G_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y (((cfg0.win 17).blk t).view.emb y) (Reads.lead t y)
    (fun k => Reads.read0 m c t y k) (fun k => Reads.read1 m c t y k) (Reads.read2 m c t y) (Reads.read3 m c t y) (Reads.read4 m c t y)
    (fun k => Reads.read5 m c t y k) (fun k => Reads.read6 m c t y k) (fun k => Reads.read7 m c t y k) (fun k => Reads.read8 m c t y k)
    (fun k => Reads.read9 m c t y k) (fun k => Reads.read10 m c t y k) (fun k => Reads.read11 m c t y k) (fun k => Reads.read12 m c t y k)
    (Reads.read13 m c t y) (Reads.read14 m c t y) (Reads.read15 m c t y) (Reads.read16 m c t y)

/-! ## The blocks tile the array -/

/-- An index of the result array is in point `t`'s block iff each coordinate is in the block's range on its axis. -/
theorem mem_blk (t : Fin cfg0.N) (i : S4x8192x2048.Idx) :
    i ∈ ((cfg0.win 17).blk t).view.set ↔ ∀ a : Fin 3, win0_17.index t a * S4x256x256.size a ≤ (i a).val ∧ (i a).val < win0_17.index t a * S4x256x256.size a + S4x256x256.size a := by
  show i ∈ ((View.whole main_v12).slice (win0_17.rect t)).set ↔ _
  rw [View.set_slice_whole, Rect.mem_set_unit]
  exact Iff.rfl

/-- Every index of the result array is in some point's block: the point of row block `row / 256`, unit block `unit / 256`. -/
theorem cover (i : S4x8192x2048.Idx) : ∃ t : Fin cfg0.N, (cfg0.win 17).flush t = true ∧ i ∈ ((cfg0.win 17).blk t).view.set := by
  have hi0 : (i 0).val < 4 := (i 0).isLt
  have hi1 : (i 1).val < 8192 := (i 1).isLt
  have hi2 : (i 2).val < 2048 := (i 2).isLt
  obtain ⟨t, ht⟩ := Reads.idx_onto ⟨(i 1).val / 256, by omega⟩ ⟨(i 2).val / 256, by omega⟩
  have q0 : win0_17.index t (0 : Fin 3) = 0 := congrFun ht 0
  have q1 : win0_17.index t (1 : Fin 3) = (i 1).val / 256 := congrFun ht 1
  have q2 : win0_17.index t (2 : Fin 3) = (i 2).val / 256 := congrFun ht 2
  refine ⟨t, flush0_17 t, ?_⟩
  rw [mem_blk]
  intro a
  match a with
  | ⟨0, _⟩ => show win0_17.index t (0 : Fin 3) * 4 ≤ (i 0).val ∧ (i 0).val < win0_17.index t (0 : Fin 3) * 4 + 4; omega
  | ⟨1, _⟩ => show win0_17.index t (1 : Fin 3) * 256 ≤ (i 1).val ∧ (i 1).val < win0_17.index t (1 : Fin 3) * 256 + 256; omega
  | ⟨2, _⟩ => show win0_17.index t (2 : Fin 3) * 256 ≤ (i 2).val ∧ (i 2).val < win0_17.index t (2 : Fin 3) * 256 + 256; omega

/-- The result array after the run is the specification's function of the argument arrays. -/
theorem final (c : Dev nD) : (dats m 0 c).arrAt 17 cfg0.N = Gm m c :=
  (dats m 0 c).arrAt_eq_of_cover 17 (Gm m c) (fun t _ => flushed_eq m c t) cover

/-! ## The run, read -/

theorem run : θ_run defs (onTc (τ := τ) (main (F := Ideal))) ⟨m, fun _ => 0, ρ⟩ fun r => ∀ c : Dev nD,
      r.2.mem ((c : Thread nD τ).loc main_v12) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.KernelValue

end
-- ==== Proof.RefValue.lean ====
/-
  The reference program read at an index, and that it computes the specification's function.

  The reference joins `x` and `h` along the columns, stacks the four weights along the rows and the four biases end to
  end, and makes all four gates by ONE product against the transposed stack: column `g · 2048 + j` of that product is
  gate `g` at unit `j`, because row `g · 2048 + j` of the stack is row `j` of weight `g`. Its contraction runs over
  the 4096 joined columns; split at 2048 the first half meets `x` and the second `h`, which is the specification's
  two sums. The slices then cut the gates apart, the update is pointwise (the sigmoid spelt as `1 / (1 + exp (-o))`,
  which is the logistic function), and the four results are stacked along a new leading axis.
-/
import proofs.«177029_j70042326663308_1_alg».proof.Proof.Gen.ReferenceIdeal.Read
import proofs.«177029_j70042326663308_1_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Cell

variable (x0 x1 x2 x3 x4 : (⟨S8192x2048, .f32⟩ : BufTy).Contents (Elt Ideal))
variable (x5 x7 x9 x11 : (⟨S2048x4096, .f32⟩ : BufTy).Contents (Elt Ideal))
variable (x6 x8 x10 x12 : (⟨S2048, .f32⟩ : BufTy).Contents (Elt Ideal))

/-! ## The joined and stacked arrays -/

/-- The first 2048 columns of `[x, h]` are `x`'s. -/
theorem joined_lo (b : Fin 8192) (k : Fin 2048) : val_main_v0 (F := Ideal) x0 x1 (ix2 b (lo k)) = x0 (ix2 b k) := by
  unfold val_main_v0
  exact concatenate_pair_apply_left _ x0 x1 _ (ix2 b (lo k)) rfl (ix2 b k) (fun a => match a with
    | ⟨0, _⟩ => rfl
    | ⟨1, _⟩ => rfl)

/-- The last 2048 columns of `[x, h]` are `h`'s. -/
theorem joined_hi (b : Fin 8192) (k : Fin 2048) : val_main_v0 (F := Ideal) x0 x1 (ix2 b (hi k)) = x1 (ix2 b k) := by
  unfold val_main_v0
  refine concatenate_pair_apply_right _ x0 x1 _ (ix2 b (hi k)) rfl rfl (ix2 b k) (fun a hne => ?_) ?_
  · match a, hne with
    | ⟨0, _⟩, _ => rfl
    | ⟨1, _⟩, h => exact absurd rfl h
  · show k.val + 2048 = 2048 + k.val; omega

/-- Row `g · 2048 + j` of the stacked weights is row `j` of weight `g`. -/
theorem stackW0 (j : Fin 2048) (k : Fin 4096) (r : Fin 8192) (hr : r.val = 0 + j.val) :
    val_main_v1 (F := Ideal) x5 x7 x9 x11 (ix2 r k) = x5 (ix2 j k) := by
  unfold val_main_v1
  refine concatenate_apply_piece _ _ _ _ 0 ?_ S2048x4096 x5 ?_ ?_ 0 ?_ (ix2 j k) (fun a hne => ?_) ?_
  · simp
  · rfl
  · rfl
  · rfl
  · match a, hne with
    | ⟨0, _⟩, h => exact absurd rfl h
    | ⟨1, _⟩, _ => rfl
  · show 0 + j.val = r.val; omega
theorem stackW1 (j : Fin 2048) (k : Fin 4096) (r : Fin 8192) (hr : r.val = 2048 + j.val) :
    val_main_v1 (F := Ideal) x5 x7 x9 x11 (ix2 r k) = x7 (ix2 j k) := by
  unfold val_main_v1
  refine concatenate_apply_piece _ _ _ _ 1 ?_ S2048x4096 x7 ?_ ?_ 2048 ?_ (ix2 j k) (fun a hne => ?_) ?_
  · simp
  · rfl
  · rfl
  · rfl
  · match a, hne with
    | ⟨0, _⟩, h => exact absurd rfl h
    | ⟨1, _⟩, _ => rfl
  · show 2048 + j.val = r.val; omega
theorem stackW2 (j : Fin 2048) (k : Fin 4096) (r : Fin 8192) (hr : r.val = 4096 + j.val) :
    val_main_v1 (F := Ideal) x5 x7 x9 x11 (ix2 r k) = x9 (ix2 j k) := by
  unfold val_main_v1
  refine concatenate_apply_piece _ _ _ _ 2 ?_ S2048x4096 x9 ?_ ?_ 4096 ?_ (ix2 j k) (fun a hne => ?_) ?_
  · simp
  · rfl
  · rfl
  · rfl
  · match a, hne with
    | ⟨0, _⟩, h => exact absurd rfl h
    | ⟨1, _⟩, _ => rfl
  · show 4096 + j.val = r.val; omega
theorem stackW3 (j : Fin 2048) (k : Fin 4096) (r : Fin 8192) (hr : r.val = 6144 + j.val) :
    val_main_v1 (F := Ideal) x5 x7 x9 x11 (ix2 r k) = x11 (ix2 j k) := by
  unfold val_main_v1
  refine concatenate_apply_piece _ _ _ _ 3 ?_ S2048x4096 x11 ?_ ?_ 6144 ?_ (ix2 j k) (fun a hne => ?_) ?_
  · simp
  · rfl
  · rfl
  · rfl
  · match a, hne with
    | ⟨0, _⟩, h => exact absurd rfl h
    | ⟨1, _⟩, _ => rfl
  · show 6144 + j.val = r.val; omega

/-- Entry `g · 2048 + j` of the biases laid end to end is entry `j` of bias `g`. -/
theorem stackB0 (j : Fin 2048) (r : Fin 8192) (hr : r.val = 0 + j.val) :
    val_main_v2 (F := Ideal) x6 x8 x10 x12 (ix1 r) = x6 (ix1 j) := by
  unfold val_main_v2
  refine concatenate_apply_piece _ _ _ _ 0 ?_ S2048 x6 ?_ ?_ 0 ?_ (ix1 j) (fun a hne => ?_) ?_
  · simp
  · rfl
  · rfl
  · rfl
  · match a, hne with
    | ⟨0, _⟩, h => exact absurd rfl h
  · show 0 + j.val = r.val; omega
theorem stackB1 (j : Fin 2048) (r : Fin 8192) (hr : r.val = 2048 + j.val) :
    val_main_v2 (F := Ideal) x6 x8 x10 x12 (ix1 r) = x8 (ix1 j) := by
  unfold val_main_v2
  refine concatenate_apply_piece _ _ _ _ 1 ?_ S2048 x8 ?_ ?_ 2048 ?_ (ix1 j) (fun a hne => ?_) ?_
  · simp
  · rfl
  · rfl
  · rfl
  · match a, hne with
    | ⟨0, _⟩, h => exact absurd rfl h
  · show 2048 + j.val = r.val; omega
theorem stackB2 (j : Fin 2048) (r : Fin 8192) (hr : r.val = 4096 + j.val) :
    val_main_v2 (F := Ideal) x6 x8 x10 x12 (ix1 r) = x10 (ix1 j) := by
  unfold val_main_v2
  refine concatenate_apply_piece _ _ _ _ 2 ?_ S2048 x10 ?_ ?_ 4096 ?_ (ix1 j) (fun a hne => ?_) ?_
  · simp
  · rfl
  · rfl
  · rfl
  · match a, hne with
    | ⟨0, _⟩, h => exact absurd rfl h
  · show 4096 + j.val = r.val; omega
theorem stackB3 (j : Fin 2048) (r : Fin 8192) (hr : r.val = 6144 + j.val) :
    val_main_v2 (F := Ideal) x6 x8 x10 x12 (ix1 r) = x12 (ix1 j) := by
  unfold val_main_v2
  refine concatenate_apply_piece _ _ _ _ 3 ?_ S2048 x12 ?_ ?_ 6144 ?_ (ix1 j) (fun a hne => ?_) ?_
  · simp
  · rfl
  · rfl
  · rfl
  · match a, hne with
    | ⟨0, _⟩, h => exact absurd rfl h
  · show 6144 + j.val = r.val; omega

/-! ## One gate: a column of the single product -/

/-- Column `c` of the product plus the broadcast biases, where row `c` of the stacked weights is row `j` of `W` and
    entry `c` of the biases is entry `j` of `Bv`, is the gate with weight `W` and bias `Bv` at unit `j`. -/
theorem column_eq_gate (W : Mat 2048 4096) (Bv : Row 2048) (b : Fin 8192) (j : Fin 2048) (c : Fin 8192)
    (hW : ∀ k : Fin 4096, val_main_v1 (F := Ideal) x5 x7 x9 x11 (ix2 c k) = W (ix2 j k))
    (hB : val_main_v2 (F := Ideal) x6 x8 x10 x12 (ix1 c) = Bv (ix1 j)) :
    val_main_v7 (F := Ideal) x0 x1 x5 x6 x7 x8 x9 x10 x11 x12 (ix2 b c) = gate x0 x1 W Bv b j := by
  rw [val_main_v7_apply, val_main_v4_apply, val_main_v6_apply, val_main_v5_apply, sum_split]
  unfold gate
  simp only [Ideal.addf_def]
  refine congrArg₂ (· + ·) (congrArg₂ (· + ·) (Finset.sum_congr rfl fun k _ => ?_) (Finset.sum_congr rfl fun k _ => ?_)) ?_
  · have e1 : lidx_main_v4 (ix2 b c) (lo k) = ix2 b (lo k) := funext fun a => match a with | ⟨0, _⟩ => rfl | ⟨1, _⟩ => rfl
    have e2 : idx_main_v3 (ridx_main_v4 (ix2 b c) (lo k)) = ix2 c (lo k) := funext fun a => match a with | ⟨0, _⟩ => rfl | ⟨1, _⟩ => rfl
    rw [val_main_v3_apply, e1, e2, joined_lo, hW]
  · have e1 : lidx_main_v4 (ix2 b c) (hi k) = ix2 b (hi k) := funext fun a => match a with | ⟨0, _⟩ => rfl | ⟨1, _⟩ => rfl
    have e2 : idx_main_v3 (ridx_main_v4 (ix2 b c) (hi k)) = ix2 c (hi k) := funext fun a => match a with | ⟨0, _⟩ => rfl | ⟨1, _⟩ => rfl
    rw [val_main_v3_apply, e1, e2, joined_hi, hW]
  · have e3 : idx_main_v5 (idx_main_v6 (ix2 b c)) = ix1 c := funext fun a => match a with | ⟨0, _⟩ => rfl
    rw [e3, hB]

/-! ## The four slices are the four gates -/

theorem sliceI (b : Fin 8192) (j : Fin 2048) : val_main_v8 (F := Ideal) x0 x1 x5 x6 x7 x8 x9 x10 x11 x12 (ix2 b j) = gate x0 x1 x5 x6 b j := by
  have e : idx_main_v8 (ix2 b j) = ix2 b (⟨j.val, by omega⟩ : Fin 8192) := funext fun a => match a with | ⟨0, _⟩ => rfl | ⟨1, _⟩ => rfl
  rw [val_main_v8_apply, e]
  exact column_eq_gate x0 x1 x5 x7 x9 x11 x6 x8 x10 x12 x5 x6 b j _ (fun k => stackW0 x5 x7 x9 x11 j k _ (by show j.val = 0 + j.val; omega)) (stackB0 x6 x8 x10 x12 j _ (by show j.val = 0 + j.val; omega))
theorem sliceF (b : Fin 8192) (j : Fin 2048) : val_main_v9 (F := Ideal) x0 x1 x5 x6 x7 x8 x9 x10 x11 x12 (ix2 b j) = gate x0 x1 x7 x8 b j := by
  have e : idx_main_v9 (ix2 b j) = ix2 b (⟨2048 + j.val, by omega⟩ : Fin 8192) := funext fun a => match a with | ⟨0, _⟩ => rfl | ⟨1, _⟩ => rfl
  rw [val_main_v9_apply, e]
  exact column_eq_gate x0 x1 x5 x7 x9 x11 x6 x8 x10 x12 x7 x8 b j _ (fun k => stackW1 x5 x7 x9 x11 j k _ rfl) (stackB1 x6 x8 x10 x12 j _ rfl)
theorem sliceO (b : Fin 8192) (j : Fin 2048) : val_main_v10 (F := Ideal) x0 x1 x5 x6 x7 x8 x9 x10 x11 x12 (ix2 b j) = gate x0 x1 x9 x10 b j := by
  have e : idx_main_v10 (ix2 b j) = ix2 b (⟨4096 + j.val, by omega⟩ : Fin 8192) := funext fun a => match a with | ⟨0, _⟩ => rfl | ⟨1, _⟩ => rfl
  rw [val_main_v10_apply, e]
  exact column_eq_gate x0 x1 x5 x7 x9 x11 x6 x8 x10 x12 x9 x10 b j _ (fun k => stackW2 x5 x7 x9 x11 j k _ rfl) (stackB2 x6 x8 x10 x12 j _ rfl)
theorem sliceZ (b : Fin 8192) (j : Fin 2048) : val_main_v11 (F := Ideal) x0 x1 x5 x6 x7 x8 x9 x10 x11 x12 (ix2 b j) = gate x0 x1 x11 x12 b j := by
  have e : idx_main_v11 (ix2 b j) = ix2 b (⟨6144 + j.val, by omega⟩ : Fin 8192) := funext fun a => match a with | ⟨0, _⟩ => rfl | ⟨1, _⟩ => rfl
  rw [val_main_v11_apply, e]
  exact column_eq_gate x0 x1 x5 x7 x9 x11 x6 x8 x10 x12 x11 x12 b j _ (fun k => stackW3 x5 x7 x9 x11 j k _ rfl) (stackB3 x6 x8 x10 x12 j _ rfl)

/-! ## The pointwise update -/

theorem updM (i : S8192x2048.Idx) : val_main_v14 (F := Ideal) x0 x1 x4 x5 x6 x7 x8 x9 x10 x11 x12 i
    = mNew (val_main_v8 (F := Ideal) x0 x1 x5 x6 x7 x8 x9 x10 x11 x12 i) (val_main_v9 (F := Ideal) x0 x1 x5 x6 x7 x8 x9 x10 x11 x12 i) (x4 i) := rfl
theorem updC (i : S8192x2048.Idx) : val_main_v22 (F := Ideal) x0 x1 x2 x4 x5 x6 x7 x8 x9 x10 x11 x12 i
    = cNew (val_main_v8 (F := Ideal) x0 x1 x5 x6 x7 x8 x9 x10 x11 x12 i) (val_main_v9 (F := Ideal) x0 x1 x5 x6 x7 x8 x9 x10 x11 x12 i) (val_main_v11 (F := Ideal) x0 x1 x5 x6 x7 x8 x9 x10 x11 x12 i) (x2 i) (x4 i) := rfl
theorem updN (i : S8192x2048.Idx) : val_main_v24 (F := Ideal) x0 x1 x3 x4 x5 x6 x7 x8 x9 x10 x11 x12 i
    = nNew (val_main_v8 (F := Ideal) x0 x1 x5 x6 x7 x8 x9 x10 x11 x12 i) (val_main_v9 (F := Ideal) x0 x1 x5 x6 x7 x8 x9 x10 x11 x12 i) (x3 i) (x4 i) := rfl
theorem updH (i : S8192x2048.Idx) : val_main_v34 (F := Ideal) x0 x1 x2 x3 x4 x5 x6 x7 x8 x9 x10 x11 x12 i
    = hNew (val_main_v8 (F := Ideal) x0 x1 x5 x6 x7 x8 x9 x10 x11 x12 i) (val_main_v9 (F := Ideal) x0 x1 x5 x6 x7 x8 x9 x10 x11 x12 i) (val_main_v10 (F := Ideal) x0 x1 x5 x6 x7 x8 x9 x10 x11 x12 i)
        (val_main_v11 (F := Ideal) x0 x1 x5 x6 x7 x8 x9 x10 x11 x12 i) (x2 i) (x3 i) (x4 i) := by
  rw [val_main_v34_apply, val_main_v30_apply, val_main_v29_apply, val_main_cst_0_apply, val_main_v28_apply, val_main_v27_apply,
    val_main_cst_apply, val_main_v26_apply, val_main_v25_apply, val_main_v33_apply, val_main_v32_apply, val_main_v31_apply,
    val_main_cst_1_apply, updC, updN]
  unfold hNew
  rw [← logistic_spelt]
  rfl

/-! ## The stacked result -/

/-- The reference's result is the specification's function of the arguments. -/
theorem result_eq : val_main_v39 (F := Ideal) x0 x1 x2 x3 x4 x5 x6 x7 x8 x9 x10 x11 x12 = G x0 x1 x2 x3 x4 x5 x6 x7 x8 x9 x10 x11 x12 := by
  funext y
  obtain ⟨s, b, j, rfl⟩ : ∃ (s : Fin 4) (b : Fin 8192) (j : Fin 2048), y = ix3 s b j := ⟨y 0, y 1, y 2, eq_ix3 y⟩
  have e35 : idx_main_v35 (ix3 (0 : Fin 1) b j) = ix2 b j := funext fun a => match a with | ⟨0, _⟩ => rfl | ⟨1, _⟩ => rfl
  have e36 : idx_main_v36 (ix3 (0 : Fin 1) b j) = ix2 b j := funext fun a => match a with | ⟨0, _⟩ => rfl | ⟨1, _⟩ => rfl
  have e37 : idx_main_v37 (ix3 (0 : Fin 1) b j) = ix2 b j := funext fun a => match a with | ⟨0, _⟩ => rfl | ⟨1, _⟩ => rfl
  have e38 : idx_main_v38 (ix3 (0 : Fin 1) b j) = ix2 b j := funext fun a => match a with | ⟨0, _⟩ => rfl | ⟨1, _⟩ => rfl
  rw [G_apply]
  unfold val_main_v39
  match s with
  | ⟨0, _⟩ =>
    have hp : concatenate S4x8192x2048 0 [⟨S1x8192x2048, (val_main_v35 (F := Ideal) x0 x1 x2 x3 x4 x5 x6 x7 x8 x9 x10 x11 x12)⟩, ⟨S1x8192x2048, (val_main_v36 (F := Ideal) x0 x1 x2 x4 x5 x6 x7 x8 x9 x10 x11 x12)⟩, ⟨S1x8192x2048, (val_main_v37 (F := Ideal) x0 x1 x3 x4 x5 x6 x7 x8 x9 x10 x11 x12)⟩, ⟨S1x8192x2048, (val_main_v38 (F := Ideal) x0 x1 x4 x5 x6 x7 x8 x9 x10 x11 x12)⟩] concatenates_S1x8192x2048_S1x8192x2048_S1x8192x2048_S1x8192x2048_S4x8192x2048_d0 (ix3 ⟨0, by omega⟩ b j) = (val_main_v35 (F := Ideal) x0 x1 x2 x3 x4 x5 x6 x7 x8 x9 x10 x11 x12) (ix3 (0 : Fin 1) b j) := by
      refine concatenate_apply_piece _ _ _ _ 0 ?_ S1x8192x2048 _ ?_ ?_ 0 ?_ (ix3 (0 : Fin 1) b j) (fun a hne => ?_) ?_
      · simp
      · rfl
      · rfl
      · rfl
      · match a, hne with
        | ⟨0, _⟩, h => exact absurd rfl h
        | ⟨1, _⟩, _ => rfl
        | ⟨2, _⟩, _ => rfl
      · rfl
    refine hp.trans ?_
    rw [val_main_v35_apply, e35, updH, sliceI, sliceF, sliceO, sliceZ]; rfl
  | ⟨1, _⟩ =>
    have hp : concatenate S4x8192x2048 0 [⟨S1x8192x2048, (val_main_v35 (F := Ideal) x0 x1 x2 x3 x4 x5 x6 x7 x8 x9 x10 x11 x12)⟩, ⟨S1x8192x2048, (val_main_v36 (F := Ideal) x0 x1 x2 x4 x5 x6 x7 x8 x9 x10 x11 x12)⟩, ⟨S1x8192x2048, (val_main_v37 (F := Ideal) x0 x1 x3 x4 x5 x6 x7 x8 x9 x10 x11 x12)⟩, ⟨S1x8192x2048, (val_main_v38 (F := Ideal) x0 x1 x4 x5 x6 x7 x8 x9 x10 x11 x12)⟩] concatenates_S1x8192x2048_S1x8192x2048_S1x8192x2048_S1x8192x2048_S4x8192x2048_d0 (ix3 ⟨1, by omega⟩ b j) = (val_main_v36 (F := Ideal) x0 x1 x2 x4 x5 x6 x7 x8 x9 x10 x11 x12) (ix3 (0 : Fin 1) b j) := by
      refine concatenate_apply_piece _ _ _ _ 1 ?_ S1x8192x2048 _ ?_ ?_ 1 ?_ (ix3 (0 : Fin 1) b j) (fun a hne => ?_) ?_
      · simp
      · rfl
      · rfl
      · rfl
      · match a, hne with
        | ⟨0, _⟩, h => exact absurd rfl h
        | ⟨1, _⟩, _ => rfl
        | ⟨2, _⟩, _ => rfl
      · rfl
    refine hp.trans ?_
    rw [val_main_v36_apply, e36, updC, sliceI, sliceF, sliceZ]; rfl
  | ⟨2, _⟩ =>
    have hp : concatenate S4x8192x2048 0 [⟨S1x8192x2048, (val_main_v35 (F := Ideal) x0 x1 x2 x3 x4 x5 x6 x7 x8 x9 x10 x11 x12)⟩, ⟨S1x8192x2048, (val_main_v36 (F := Ideal) x0 x1 x2 x4 x5 x6 x7 x8 x9 x10 x11 x12)⟩, ⟨S1x8192x2048, (val_main_v37 (F := Ideal) x0 x1 x3 x4 x5 x6 x7 x8 x9 x10 x11 x12)⟩, ⟨S1x8192x2048, (val_main_v38 (F := Ideal) x0 x1 x4 x5 x6 x7 x8 x9 x10 x11 x12)⟩] concatenates_S1x8192x2048_S1x8192x2048_S1x8192x2048_S1x8192x2048_S4x8192x2048_d0 (ix3 ⟨2, by omega⟩ b j) = (val_main_v37 (F := Ideal) x0 x1 x3 x4 x5 x6 x7 x8 x9 x10 x11 x12) (ix3 (0 : Fin 1) b j) := by
      refine concatenate_apply_piece _ _ _ _ 2 ?_ S1x8192x2048 _ ?_ ?_ 2 ?_ (ix3 (0 : Fin 1) b j) (fun a hne => ?_) ?_
      · simp
      · rfl
      · rfl
      · rfl
      · match a, hne with
        | ⟨0, _⟩, h => exact absurd rfl h
        | ⟨1, _⟩, _ => rfl
        | ⟨2, _⟩, _ => rfl
      · rfl
    refine hp.trans ?_
    rw [val_main_v37_apply, e37, updN, sliceI, sliceF]; rfl
  | ⟨3, _⟩ =>
    have hp : concatenate S4x8192x2048 0 [⟨S1x8192x2048, (val_main_v35 (F := Ideal) x0 x1 x2 x3 x4 x5 x6 x7 x8 x9 x10 x11 x12)⟩, ⟨S1x8192x2048, (val_main_v36 (F := Ideal) x0 x1 x2 x4 x5 x6 x7 x8 x9 x10 x11 x12)⟩, ⟨S1x8192x2048, (val_main_v37 (F := Ideal) x0 x1 x3 x4 x5 x6 x7 x8 x9 x10 x11 x12)⟩, ⟨S1x8192x2048, (val_main_v38 (F := Ideal) x0 x1 x4 x5 x6 x7 x8 x9 x10 x11 x12)⟩] concatenates_S1x8192x2048_S1x8192x2048_S1x8192x2048_S1x8192x2048_S4x8192x2048_d0 (ix3 ⟨3, by omega⟩ b j) = (val_main_v38 (F := Ideal) x0 x1 x4 x5 x6 x7 x8 x9 x10 x11 x12) (ix3 (0 : Fin 1) b j) := by
      refine concatenate_apply_piece _ _ _ _ 3 ?_ S1x8192x2048 _ ?_ ?_ 3 ?_ (ix3 (0 : Fin 1) b j) (fun a hne => ?_) ?_
      · simp
      · rfl
      · rfl
      · rfl
      · match a, hne with
        | ⟨0, _⟩, h => exact absurd rfl h
        | ⟨1, _⟩, _ => rfl
        | ⟨2, _⟩, _ => rfl
      · rfl
    refine hp.trans ?_
    rw [val_main_v38_apply, e38, updM, sliceI, sliceF]; rfl

end Cert.ReferenceIdeal.RefValue

end
-- ==== Proof.lean ====
/-
  The certificate: an exponentially gated recurrent cell with four fused affine gates, computed tile by tile on a
  8 × 32 grid, against its plain whole-array form.

  Both programs compute, at batch row `b` and unit `j`, the four pre-activations
  `g = Σ_k x(b, k) · W_g(j, k) + Σ_k h(b, k) · W_g(j, 2048 + k) + bias_g(j)` and then the stabilised update
  `m' = max (f + m) i`, `i' = exp (i - m')`, `f' = exp (f + m - m')`, `c' = f' · c + i' · tanh z`, `n' = f' · n + i'`,
  `h' = σ(o) · (c' / (n' + ε))`, stacked as `[h', c', n', m']`. The tiled program takes the two sums separately, from
  the halves of each weight cut apart beforehand, in a narrower float format that is the identity on the extended
  reals; the whole-array program takes one sum over the 4096 joined columns of `[x, h]` against the four weights
  stacked, and spells the sigmoid `1 / (1 + exp (-o))`. The one law between them is the regrouping of that finite
  sum at column 2048, which holds on all of the extended reals, so the finiteness of the inputs is never used.

  The frames of the two tiled programs and the run of the whole-array program are the generated ones; the
  idealization rewrote nothing, so there is nothing to preserve.
-/
import proofs.«177029_j70042326663308_1_alg».proof.Defs
import proofs.«177029_j70042326663308_1_alg».proof.Proof.Gen.Kernel
import proofs.«177029_j70042326663308_1_alg».proof.Proof.Gen.Kernel.Skeleton
import proofs.«177029_j70042326663308_1_alg».proof.Proof.Gen.Kernel.Launch
import proofs.«177029_j70042326663308_1_alg».proof.Proof.Gen.Kernel.Points
import proofs.«177029_j70042326663308_1_alg».proof.Proof.Gen.Kernel.Frame
import proofs.«177029_j70042326663308_1_alg».proof.Proof.Gen.KernelIdeal
import proofs.«177029_j70042326663308_1_alg».proof.Proof.Gen.KernelIdeal.Skeleton
import proofs.«177029_j70042326663308_1_alg».proof.Proof.Gen.KernelIdeal.Launch
import proofs.«177029_j70042326663308_1_alg».proof.Proof.Gen.KernelIdeal.Points
import proofs.«177029_j70042326663308_1_alg».proof.Proof.Gen.KernelIdeal.Frame
import proofs.«177029_j70042326663308_1_alg».proof.Proof.Gen.ReferenceIdeal
import proofs.«177029_j70042326663308_1_alg».proof.Proof.Gen.Pre_finite_inputs
import proofs.«177029_j70042326663308_1_alg».proof.Proof.Gen.KernelIdeal.Value
import proofs.«177029_j70042326663308_1_alg».proof.Proof.Gen.ReferenceIdeal.Run
import proofs.«177029_j70042326663308_1_alg».proof.Proof.Gen.ReferenceIdeal.Read
import proofs.«177029_j70042326663308_1_alg».proof.Proof.KernelValue
import proofs.«177029_j70042326663308_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The whole-array program's frame is its run with the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the thirteen arguments both programs end with the specification's function of those
    arguments in the result array: the tiled one block by block, the whole-array one stage by stage. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KernelValue.Gm m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v39_eq, Cert.ReferenceIdeal.RefValue.result_eq, a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
